-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x128 : Shape := ⟨2, ![1048576, 128]⟩
abbrev S1048576 : Shape := ⟨1, ![1048576]⟩
abbrev S1000x128 : Shape := ⟨2, ![1000, 128]⟩
abbrev S_ : Shape := ⟨0, ![]⟩

class Facts : Prop where
  bcast_S_S1048576x128 : S_.BroadcastsInDim S1048576x128 (![] : Fin 0 → Fin S1048576x128.rank)
  reducesTo_S1048576x128_S_d0_1 : S1048576x128.ReducesTo [0, 1] S_
  h_S_ : 0 < S_.numel
  bcast_S_S1000x128 : S_.BroadcastsInDim S1000x128 (![] : Fin 0 → Fin S1000x128.rank)
  reducesTo_S1000x128_S_d0_1 : S1000x128.ReducesTo [0, 1] S_

variable [Facts]

def fn {F : FTy → Type} [FloatOps F] (main_arg0 : FVec F S1048576x128 .f32) (main_arg1 : IVec S1048576 32) (main_arg2 : FVec F S1000x128 .f32) : IVec S_ 1 :=
  let main_v0 : FVec F S1048576x128 .f32 := Host.absf main_arg0
  let main_cst : FVec F S_ .f32 := constant S_ .f32 0x7F800000#32
  let main_v1 : FVec F S1048576x128 .f32 := broadcastInDim S1048576x128 ![] bcast_S_S1048576x128 main_cst
  let main_v2 : IVec S1048576x128 1 := cmpf .olt main_v0 main_v1
  let main_c : IVec S_ 1 := constantI S_ 1 1#1
  let main_v3 : IVec S_ 1 := (fun x v => Host.reduce IntOp.andi x v reducesTo_S1048576x128_S_d0_1 h_S_) main_v2 main_c
  let main_v4 : FVec F S1000x128 .f32 := Host.absf main_arg2
  let main_cst_0 : FVec F S_ .f32 := constant S_ .f32 0x7F800000#32
  let main_v5 : FVec F S1000x128 .f32 := broadcastInDim S1000x128 ![] bcast_S_S1000x128 main_cst_0
  let main_v6 : IVec S1000x128 1 := cmpf .olt main_v4 main_v5
  let main_c_1 : IVec S_ 1 := constantI S_ 1 1#1
  let main_v7 : IVec S_ 1 := (fun x v => Host.reduce IntOp.andi x v reducesTo_S1000x128_S_d0_1 h_S_) main_v6 main_c_1
  let main_v8 : IVec S_ 1 := andi main_v3 main_v7
  main_v8
-- ==== Kernel.lean ====
abbrev S1048576x128 : Shape := ⟨2, ![1048576, 128]⟩
abbrev S1048576 : Shape := ⟨1, ![1048576]⟩
abbrev S1000x128 : Shape := ⟨2, ![1000, 128]⟩
abbrev S_ : Shape := ⟨0, ![]⟩
abbrev S1x1048576 : Shape := ⟨2, ![1, 1048576]⟩
abbrev S2x1024x256 : Shape := ⟨3, ![2, 1024, 256]⟩
abbrev S4096x128 : Shape := ⟨2, ![4096, 128]⟩
abbrev S1x4096 : Shape := ⟨2, ![1, 4096]⟩
abbrev S1x1024x256 : Shape := ⟨3, ![1, 1024, 256]⟩
abbrev S4096x256 : Shape := ⟨2, ![4096, 256]⟩
abbrev S1024x256 : Shape := ⟨2, ![1024, 256]⟩
abbrev S1024x1 : Shape := ⟨2, ![1024, 1]⟩
abbrev S1024x4096 : Shape := ⟨2, ![1024, 4096]⟩
abbrev S1000x1 : Shape := ⟨2, ![1000, 1]⟩
abbrev S1000 : Shape := ⟨1, ![1000]⟩

abbrev nBuf : Space → Nat
  | .hbm => 48
  | .vmem => 7
  | .smem => 0
  | _ => 0

abbrev bufTy : (tb : Table) → Fin (tcTables nBuf tb) → BufTy
  | .hbm, ⟨0, _⟩ => ⟨S1048576x128, .f32⟩
  | .hbm, ⟨1, _⟩ => ⟨S1048576, .i32⟩
  | .hbm, ⟨2, _⟩ => ⟨S1000x128, .f32⟩
  | .hbm, ⟨3, _⟩ => ⟨S_, .i32⟩
  | .hbm, ⟨4, _⟩ => ⟨S1048576, .i32⟩
  | .hbm, ⟨5, _⟩ => ⟨S1048576, .i1⟩
  | .hbm, ⟨6, _⟩ => ⟨S_, .i32⟩
  | .hbm, ⟨7, _⟩ => ⟨S1048576, .i32⟩
  | .hbm, ⟨8, _⟩ => ⟨S1048576, .i1⟩
  | .hbm, ⟨9, _⟩ => ⟨S1048576, .i1⟩
  | .hbm, ⟨10, _⟩ => ⟨S_, .i32⟩
  | .hbm, ⟨11, _⟩ => ⟨S_, .i32⟩
  | .hbm, ⟨12, _⟩ => ⟨S1048576, .i32⟩
  | .hbm, ⟨13, _⟩ => ⟨S1048576, .i32⟩
  | .hbm, ⟨14, _⟩ => ⟨S1x1048576, .i32⟩
  | .hbm, ⟨15, _⟩ => ⟨S2x1024x256, .f32⟩
  | .hbm, ⟨16, _⟩ => ⟨S_, .f32⟩
  | .hbm, ⟨17, _⟩ => ⟨S1024x256, .f32⟩
  | .hbm, ⟨18, _⟩ => ⟨S1000x128, .f32⟩
  | .hbm, ⟨19, _⟩ => ⟨S1000x1, .f32⟩
  | .hbm, ⟨20, _⟩ => ⟨S1000, .f32⟩
  | .hbm, ⟨21, _⟩ => ⟨S_, .f32⟩
  | .hbm, ⟨22, _⟩ => ⟨S1000, .f32⟩
  | .hbm, ⟨23, _⟩ => ⟨S1000, .f32⟩
  | .hbm, ⟨24, _⟩ => ⟨S1000x1, .f32⟩
  | .hbm, ⟨25, _⟩ => ⟨S1000x128, .f32⟩
  | .hbm, ⟨26, _⟩ => ⟨S1000x128, .f32⟩
  | .hbm, ⟨27, _⟩ => ⟨S_, .f32⟩
  | .hbm, ⟨28, _⟩ => ⟨S1000, .f32⟩
  | .hbm, ⟨29, _⟩ => ⟨S1000, .i1⟩
  | .hbm, ⟨30, _⟩ => ⟨S1000x1, .i1⟩
  | .hbm, ⟨31, _⟩ => ⟨S_, .f32⟩
  | .hbm, ⟨32, _⟩ => ⟨S1000, .f32⟩
  | .hbm, ⟨33, _⟩ => ⟨S_, .f32⟩
  | .hbm, ⟨34, _⟩ => ⟨S1000, .f32⟩
  | .hbm, ⟨35, _⟩ => ⟨S1000, .i1⟩
  | .hbm, ⟨36, _⟩ => ⟨S1000x1, .i1⟩
  | .hbm, ⟨37, _⟩ => ⟨S_, .f32⟩
  | .hbm, ⟨38, _⟩ => ⟨S1000x128, .f32⟩
  | .hbm, ⟨39, _⟩ => ⟨S1000x128, .f32⟩
  | .hbm, ⟨40, _⟩ => ⟨S_, .f32⟩
  | .hbm, ⟨41, _⟩ => ⟨S1000x128, .f32⟩
  | .hbm, ⟨42, _⟩ => ⟨S1000x128, .f32⟩
  | .hbm, ⟨43, _⟩ => ⟨S1000x128, .f32⟩
  | .hbm, ⟨44, _⟩ => ⟨S1000x128, .i1⟩
  | .hbm, ⟨45, _⟩ => ⟨S1000x128, .f32⟩
  | .hbm, ⟨46, _⟩ => ⟨S1000x128, .i1⟩
  | .hbm, ⟨47, _⟩ => ⟨S1000x128, .f32⟩
  | .local _ .vmem, ⟨0, _⟩ => ⟨S4096x128, .f32⟩
  | .local _ .vmem, ⟨1, _⟩ => ⟨S4096x128, .f32⟩
  | .local _ .vmem, ⟨2, _⟩ => ⟨S1x4096, .i32⟩
  | .local _ .vmem, ⟨3, _⟩ => ⟨S1x4096, .i32⟩
  | .local _ .vmem, ⟨4, _⟩ => ⟨S1x1024x256, .f32⟩
  | .local _ .vmem, ⟨5, _⟩ => ⟨S1x1024x256, .f32⟩
  | .local _ .vmem, ⟨6, _⟩ => ⟨S4096x256, .bf16⟩
  | _, _ => ⟨S1048576x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_1 : Ref sig .tc := ⟨.hbm, 10, rfl⟩
abbrev main_call0_v0 : Ref sig .tc := ⟨.hbm, 11, rfl⟩
abbrev main_call0_v1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_6 : Ref sig .tc := ⟨.hbm, 37, rfl⟩
abbrev main_v24 : Ref sig .tc := ⟨.hbm, 38, rfl⟩
abbrev main_v25 : Ref sig .tc := ⟨.hbm, 39, rfl⟩
abbrev main_cst_7 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_call1_v0 : Ref sig .tc := ⟨.hbm, 44, rfl⟩
abbrev main_v29 : Ref sig .tc := ⟨.hbm, 45, rfl⟩
abbrev main_call2_v0 : Ref sig .tc := ⟨.hbm, 46, rfl⟩
abbrev main_v30 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 128], ![false, false]⟩

def cc0_transform_0 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bcast_S_S1048576 : S_.BroadcastsInDim S1048576 (![] : Fin 0 → Fin S1048576.rank)
  shapeCasts_S1048576_S1x1048576 : S1048576.ShapeCasts S1x1048576
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  shapeCasts_S1024x256_S1x1024x256 : S1024x256.ShapeCasts S1x1024x256
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  iota_S1024x1_d0_w32 : S1024x1.Iotas .tc 32 [0]
  broadcasts_S1024x1_S1024x4096 : S1024x1.Broadcasts S1024x4096
  broadcasts_S1x4096_S1024x4096 : S1x4096.Broadcasts S1024x4096
  natLt_1_32 : 1 < 32
  bitsLt_bf16_f32 : FTy.bits .bf16 < FTy.bits .f32
  inb_S4096x128_S4096x128_0_0 : ∀ a, (![0, 0] : Fin 2 → Nat) a + S4096x128.size a ≤ S4096x128.size a
  h_S4096x128 : 0 < S4096x128.numel
  iota_S4096x128_d1_w32 : S4096x128.Iotas .tc 32 [1]
  inb_S4096x256_S4096x128_0_0 : ∀ a, (![0, 0] : Fin 2 → Nat) a + S4096x128.size a ≤ S4096x256.size a
  shapeCasts_S4096x128_S4096x128 : S4096x128.ShapeCasts S4096x128
  packedbf16_S4096x256_S4096x128_0_0 : (Rect.unit (s := S4096x256) ![0, 0] S4096x128.size inb_S4096x256_S4096x128_0_0).PackedRows (EltTy.packing .bf16)
  inb_S4096x256_S4096x128_0_128 : ∀ a, (![0, 128] : Fin 2 → Nat) a + S4096x128.size a ≤ S4096x256.size a
  packedbf16_S4096x256_S4096x128_0_128 : (Rect.unit (s := S4096x256) ![0, 128] S4096x128.size inb_S4096x256_S4096x128_0_128).PackedRows (EltTy.packing .bf16)
  inb_S4096x256_S4096x256_0_0 : ∀ a, (![0, 0] : Fin 2 → Nat) a + S4096x256.size a ≤ S4096x256.size a
  h_S4096x256 : 0 < S4096x256.numel
  reducesTo_S2x1024x256_S1024x256_d0 : S2x1024x256.ReducesTo [0] S1024x256
  h_S_ : 0 < S_.numel
  slices_S1024x256_S1000x128_0_0 : S1024x256.Slices ![0, 0] S1000x128
  slices_S1024x256_S1000x1_0_128 : S1024x256.Slices ![0, 128] S1000x1
  shapeCasts_S1000x1_S1000 : S1000x1.ShapeCasts S1000
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x128_0_1 : S1000x1.BroadcastsInDim S1000x128 (![0, 1] : Fin 2 → Fin S1000x128.rank)
  reducesTo_S1000x128_S1000_d1 : S1000x128.ReducesTo [1] S1000
  bcast_S_S1000x128 : S_.BroadcastsInDim S1000x128 (![] : Fin 0 → Fin S1000x128.rank)
  dot_S1024x4096_S4096x256_S1024x256_1_0_0_1_n_n_wf : DotDims.WF S1024x4096 S4096x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S1048576x128.size a
  hwx0_0 : ∀ i : grid0.Coords, EltTy.bits .f32 = 32 ∨ (Rect.block (s := S1048576x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096.size a ≤ S1x1048576.size a
  hwx0_1 : ∀ i : grid0.Coords, EltTy.bits .i32 = 32 ∨ (Rect.block (s := S1x1048576) S1x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x256.size a ≤ S2x1024x256.size a
  hwx0_2 : ∀ i : grid0.Coords, EltTy.bits .f32 = 32 ∨ (Rect.block (s := S2x1024x256) S1x1024x256.size (cc0_transform_2 i) (hinb0_2 i)).WholeWords (EltTy.packing .f32)

variable [Facts₀]

def dot_S1024x4096_S4096x256_S1024x256_1_0_0_1_n_n : DotDims S1024x4096 S4096x256 S1024x256 where
  lhsContracting := [1]
  rhsContracting := [0]
  lhsNonContracting := [0]
  rhsNonContracting := [1]
  lhsBatch := []
  rhsBatch := []
  wf := dot_S1024x4096_S4096x256_S1024x256_1_0_0_1_n_n_wf

abbrev win0_0 : Pipeline.Window sig grid0 :=
  Pipeline.Window.ofSpec (Memref.whole main_arg0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x1024x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1048576x128 : Shape := ⟨2, ![1048576, 128]⟩
abbrev S1048576 : Shape := ⟨1, ![1048576]⟩
abbrev S1000x128 : Shape := ⟨2, ![1000, 128]⟩
abbrev S_ : Shape := ⟨0, ![]⟩
abbrev S1048576x1 : Shape := ⟨2, ![1048576, 1]⟩
abbrev S1000 : Shape := ⟨1, ![1000]⟩
abbrev S1000x1 : Shape := ⟨2, ![1000, 1]⟩

abbrev nBuf : Space → Nat
  | .hbm => 40
  | .vmem => 0
  | .smem => 0
  | _ => 0

abbrev bufTy : (tb : Table) → Fin (tcTables nBuf tb) → BufTy
  | .hbm, ⟨0, _⟩ => ⟨S1048576x128, .f32⟩
  | .hbm, ⟨1, _⟩ => ⟨S1048576, .i32⟩
  | .hbm, ⟨2, _⟩ => ⟨S1000x128, .f32⟩
  | .hbm, ⟨3, _⟩ => ⟨S_, .f32⟩
  | .hbm, ⟨4, _⟩ => ⟨S1000x128, .f32⟩
  | .hbm, ⟨5, _⟩ => ⟨S1048576x1, .i32⟩
  | .hbm, ⟨6, _⟩ => ⟨S1000x128, .f32⟩
  | .hbm, ⟨7, _⟩ => ⟨S_, .f32⟩
  | .hbm, ⟨8, _⟩ => ⟨S1048576, .f32⟩
  | .hbm, ⟨9, _⟩ => ⟨S_, .f32⟩
  | .hbm, ⟨10, _⟩ => ⟨S1000, .f32⟩
  | .hbm, ⟨11, _⟩ => ⟨S1048576x1, .i32⟩
  | .hbm, ⟨12, _⟩ => ⟨S1000, .f32⟩
  | .hbm, ⟨13, _⟩ => ⟨S_, .f32⟩
  | .hbm, ⟨14, _⟩ => ⟨S1000, .f32⟩
  | .hbm, ⟨15, _⟩ => ⟨S1000, .f32⟩
  | .hbm, ⟨16, _⟩ => ⟨S1000x1, .f32⟩
  | .hbm, ⟨17, _⟩ => ⟨S1000x128, .f32⟩
  | .hbm, ⟨18, _⟩ => ⟨S1000x128, .f32⟩
  | .hbm, ⟨19, _⟩ => ⟨S_, .f32⟩
  | .hbm, ⟨20, _⟩ => ⟨S1000, .f32⟩
  | .hbm, ⟨21, _⟩ => ⟨S1000, .i1⟩
  | .hbm, ⟨22, _⟩ => ⟨S1000x1, .i1⟩
  | .hbm, ⟨23, _⟩ => ⟨S_, .f32⟩
  | .hbm, ⟨24, _⟩ => ⟨S1000, .f32⟩
  | .hbm, ⟨25, _⟩ => ⟨S_, .f32⟩
  | .hbm, ⟨26, _⟩ => ⟨S1000, .f32⟩
  | .hbm, ⟨27, _⟩ => ⟨S1000, .i1⟩
  | .hbm, ⟨28, _⟩ => ⟨S1000x1, .i1⟩
  | .hbm, ⟨29, _⟩ => ⟨S_, .f32⟩
  | .hbm, ⟨30, _⟩ => ⟨S1000x128, .f32⟩
  | .hbm, ⟨31, _⟩ => ⟨S1000x128, .f32⟩
  | .hbm, ⟨32, _⟩ => ⟨S_, .f32⟩
  | .hbm, ⟨33, _⟩ => ⟨S1000x128, .f32⟩
  | .hbm, ⟨34, _⟩ => ⟨S1000x128, .f32⟩
  | .hbm, ⟨35, _⟩ => ⟨S1000x128, .f32⟩
  | .hbm, ⟨36, _⟩ => ⟨S1000x128, .i1⟩
  | .hbm, ⟨37, _⟩ => ⟨S1000x128, .f32⟩
  | .hbm, ⟨38, _⟩ => ⟨S1000x128, .i1⟩
  | .hbm, ⟨39, _⟩ => ⟨S1000x128, .f32⟩
  | _, _ => ⟨S1048576x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_4 : Ref sig .tc := ⟨.hbm, 23, rfl⟩
abbrev main_v15 : Ref sig .tc := ⟨.hbm, 24, rfl⟩
abbrev main_cst_5 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_6 : Ref sig .tc := ⟨.hbm, 29, rfl⟩
abbrev main_v19 : Ref sig .tc := ⟨.hbm, 30, rfl⟩
abbrev main_v20 : Ref sig .tc := ⟨.hbm, 31, rfl⟩
abbrev main_cst_7 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_call0_v0 : Ref sig .tc := ⟨.hbm, 36, rfl⟩
abbrev main_v24 : Ref sig .tc := ⟨.hbm, 37, rfl⟩
abbrev main_call1_v0 : Ref sig .tc := ⟨.hbm, 38, rfl⟩
abbrev main_v25 : Ref sig .tc := ⟨.hbm, 39, rfl⟩

abbrev nD : Nat := 1
abbrev τ : Topo := Topo.v7x

variable {F : FTy → Type} [FloatOps F]

class Facts₀ : Prop where
  bcast_S_S1000x128 : S_.BroadcastsInDim S1000x128 (![] : Fin 0 → Fin S1000x128.rank)
  bcast_S1048576_S1048576x1_0 : S1048576.BroadcastsInDim S1048576x1 (![0] : Fin 1 → Fin S1048576x1.rank)
  bcast_S_S1048576 : S_.BroadcastsInDim S1048576 (![] : Fin 0 → Fin S1048576.rank)
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x128_0_1 : S1000x1.BroadcastsInDim S1000x128 (![0, 1] : Fin 2 → Fin S1000x128.rank)
  reducesTo_S1000x128_S1000_d1 : S1000x128.ReducesTo [1] S1000
  h_S_ : 0 < S_.numel
  scatter_S1000x128_S1048576x1_S1048576x128_1_0_0_1_wf : ScatterDims.WF S1000x128 S1048576x1 S1048576x128 [1] [0] [0] 1
  scatter_S1000_S1048576x1_S1048576_n_0_0_1_wf : ScatterDims.WF S1000 S1048576x1 S1048576 [] [0] [0] 1

variable [Facts₀]

def scatter_S1000x128_S1048576x1_S1048576x128_1_0_0_1 : ScatterDims S1000x128 S1048576x1 S1048576x128 where
  updateWindowDims := [1]
  insertedWindowDims := [0]
  scatterDimsToOperandDims := [0]
  indexVectorDim := 1
  wf := scatter_S1000x128_S1048576x1_S1048576x128_1_0_0_1_wf
def scatter_S1000_S1048576x1_S1048576_n_0_0_1 : ScatterDims S1000 S1048576x1 S1048576 where
  updateWindowDims := []
  insertedWindowDims := [0]
  scatterDimsToOperandDims := [0]
  indexVectorDim := 1
  wf := scatter_S1000_S1048576x1_S1048576_n_0_0_1_wf

class Facts : Prop extends Facts₀ where

variable [Facts]
-- ==== Proof.Tail.lean ====
/-
  The part both programs share after the per-class sums and counts are known: the mean `sums / max(counts, 1)`, the
  cold-start test `∑ protos = 0` row by row, the momentum blend `0.9 · protos + 0.1 · mean`, and the two selections
  (a class with no sample keeps its prototype). It is carried as ONE function of `sums`, `counts` and `protos`; the
  equivalence never looks inside it.
-/
import proofs.«424271_j52948356825776_3_alg».proof.Proof.Gen.ReferenceIdeal

noncomputable section

namespace Cert.SegMean

open Cert.ReferenceIdeal Cert.ReferenceIdeal.Gen Idealize.ShloMosaic Idealize.ShloMosaic.TcCoe

variable {F : FTy → Type} [FloatOps F]

/-- The updated prototypes from the per-class sums, the per-class counts and the old prototypes. -/
def tail (sums : FVec F S1000x128 .f32) (counts : FVec F S1000 .f32) (protos : FVec F S1000x128 .f32) : FVec F S1000x128 .f32 :=
  select (broadcastInDim S1000x128 ![0, 1] bcast_S1000x1_S1000x128_0_1 (broadcastInDim S1000x1 ![0] bcast_S1000_S1000x1_0 (cmpf (F := F) .ogt counts (broadcastInDim S1000 ![] bcast_S_S1000 (constant S_ .f32 0x00000000#32))))) (select (broadcastInDim S1000x128 ![0, 1] bcast_S1000x1_S1000x128_0_1 (broadcastInDim S1000x1 ![0] bcast_S1000_S1000x1_0 (cmpf (F := F) .oeq (Host.reduceAdd protos (constant S_ .f32 0x00000000#32) reducesTo_S1000x128_S1000_d1 h_S_) (broadcastInDim S1000 ![] bcast_S_S1000 (constant S_ .f32 0x00000000#32))))) (Host.divf sums (broadcastInDim S1000x128 ![0, 1] bcast_S1000x1_S1000x128_0_1 (broadcastInDim S1000x1 ![0] bcast_S1000_S1000x1_0 (maximumf counts (broadcastInDim S1000 ![] bcast_S_S1000 (constant S_ .f32 0x3F800000#32)))))) (addf (mulf (broadcastInDim S1000x128 ![] bcast_S_S1000x128 (constant S_ .f32 0x3F666666#32)) protos) (mulf (broadcastInDim S1000x128 ![] bcast_S_S1000x128 (constant S_ .f32 0x3DCCCCCD#32)) (Host.divf sums (broadcastInDim S1000x128 ![0, 1] bcast_S1000x1_S1000x128_0_1 (broadcastInDim S1000x1 ![0] bcast_S1000_S1000x1_0 (maximumf counts (broadcastInDim S1000 ![] bcast_S_S1000 (constant S_ .f32 0x3F800000#32))))))))) protos

end Cert.SegMean

end
-- ==== Proof.Spec.lean ====
/-
  The mathematics of the per-class mean, free of any program: what a class's feature sum and its count are as plain
  sums over the samples, the words the kernel's label remap and one-hot compare produce, and the kernel's partial sums
  (one per half of the samples) as sums over ranges of sample numbers.
-/
import Idealize.ShloMosaic.PureOps.Ideal
import Idealize.ShloMosaic.Lib.ValueIdx
import Mathlib.Algebra.BigOperators.Intervals
import Mathlib.Algebra.BigOperators.Fin

noncomputable section

open scoped BigOperators

namespace Cert.SegMean

open Idealize.ShloMosaic Idealize.ShloMosaic.ValueIdx

/-- Class `k`'s feature sum, column `d`: the features of the samples whose label, read as a signed integer, is `k`. -/
def classSum (feat : (⟨2, ![1048576, 128]⟩ : Shape).Idx → EReal) (lab : (⟨1, ![1048576]⟩ : Shape).Idx → BitVec 32) :
    (⟨2, ![1000, 128]⟩ : Shape).Idx → EReal :=
  fun i => ∑ N : Fin 1048576, if (lab (ix1 N)).toInt = ((i 0).val : ℤ) then feat (ix2 N (i 1)) else 0

/-- Class `k`'s count: one for every sample whose label is `k`. -/
def classCount (lab : (⟨1, ![1048576]⟩ : Shape).Idx → BitVec 32) : (⟨1, ![1000]⟩ : Shape).Idx → EReal :=
  fun i => ∑ N : Fin 1048576, if (lab (ix1 N)).toInt = ((i 0).val : ℤ) then (1 : EReal) else 0

/-- The label remap: a label outside `[0, 1000)` (read signed) becomes 1023, a column no class below 1000 reads. -/
def relabel (l : BitVec 32) : BitVec 32 := if 0 ≤ l.toInt ∧ l.toInt < 1000 then l else 1023#32

/-- One entry of the one-hot matrix: one when row `k`'s word is the label's word, else zero. -/
def hit (k : ℕ) (l : BitVec 32) : EReal := if BitVec.ofNat 32 k = l then 1 else 0

/-- For a class below 1000, a 32-bit word is the class's word exactly when it reads, signed, as the class. -/
theorem ofNat_eq_iff_toInt (k : ℕ) (hk : k < 1000) (l : BitVec 32) :
    BitVec.ofNat 32 k = l ↔ l.toInt = (k : ℤ) := by
  have hl : l.toNat < 2 ^ 32 := l.isLt
  constructor
  · intro h
    subst h
    rw [BitVec.toInt_eq_toNat_cond, BitVec.toNat_ofNat, Nat.mod_eq_of_lt (by omega)]
    split <;> omega
  · intro h
    apply BitVec.eq_of_toNat_eq
    rw [BitVec.toNat_ofNat, Nat.mod_eq_of_lt (by omega)]
    rw [BitVec.toInt_eq_toNat_cond] at h
    split at h <;> omega

/-- For a class below 1000 the one-hot entry of a remapped label is one exactly when the label itself is the class. -/
theorem hit_relabel (k : ℕ) (hk : k < 1000) (l : BitVec 32) :
    hit k (relabel l) = if l.toInt = (k : ℤ) then 1 else 0 := by
  unfold hit relabel
  by_cases hv : 0 ≤ l.toInt ∧ l.toInt < 1000
  · -- a valid label is kept: the two tests agree
    rw [if_pos hv]
    by_cases h : l.toInt = (k : ℤ)
    · rw [if_pos h, if_pos ((ofNat_eq_iff_toInt k hk l).2 h)]
    · rw [if_neg h, if_neg (fun h' => h ((ofNat_eq_iff_toInt k hk l).1 h'))]
  · -- an invalid label becomes 1023, which no class below 1000 equals; and it is no class itself
    rw [if_neg hv]
    have h1 : ¬ l.toInt = (k : ℤ) := by
      intro h
      apply hv
      omega
    have h2 : ¬ BitVec.ofNat 32 k = 1023#32 := by
      intro h
      have h3 := (ofNat_eq_iff_toInt k hk (1023#32)).1 h
      have h4 : (1023#32 : BitVec 32).toInt = 1023 := by decide
      omega
    rw [if_neg h1, if_neg h2]

/-- The augmented feature row: the sample's 128 features, then a one in column 128, then zeros. -/
def augv (feat : (⟨2, ![1048576, 128]⟩ : Shape).Idx → EReal) (N : Fin 1048576) (e : Fin 256) : EReal :=
  if h : e.val < 128 then feat (ix2 N ⟨e.val, h⟩) else if e.val = 128 then 1 else 0

/-- Sample number `N`'s contribution to row `k`, column `e` of the one-hot product (zero past the last sample). -/
def term (labR : (⟨2, ![1, 1048576]⟩ : Shape).Idx → BitVec 32) (feat : (⟨2, ![1048576, 128]⟩ : Shape).Idx → EReal)
    (k : Fin 1024) (e : Fin 256) (N : ℕ) : EReal :=
  if h : N < 1048576 then hit k.val (labR (ix2 0 ⟨N, h⟩)) * augv feat ⟨N, h⟩ e else 0

/-- What each half of the grid accumulates: half `y 0` sums the contributions of its 524288 samples. -/
def partialSums (labR : (⟨2, ![1, 1048576]⟩ : Shape).Idx → BitVec 32) (feat : (⟨2, ![1048576, 128]⟩ : Shape).Idx → EReal) :
    (⟨3, ![2, 1024, 256]⟩ : Shape).Idx → EReal :=
  fun y => ∑ N ∈ Finset.Ico ((y 0).val * 524288) (((y 0).val + 1) * 524288), term labR feat (y 1) (y 2) N

/-- The two halves' ranges of sample numbers joined: every sample number once. -/
theorem halves_all (labR : (⟨2, ![1, 1048576]⟩ : Shape).Idx → BitVec 32) (feat : (⟨2, ![1048576, 128]⟩ : Shape).Idx → EReal)
    (k : Fin 1024) (e : Fin 256) :
    ∑ cc : Fin 2, partialSums labR feat (ix3 cc k e) = ∑ N : Fin 1048576, term labR feat k e N.val := by
  have e0 : partialSums labR feat (ix3 (0 : Fin 2) k e)
      = ∑ N ∈ Finset.Ico 0 524288, term labR feat k e N := by
    show ∑ N ∈ Finset.Ico ((0 : Fin 2).val * 524288) (((0 : Fin 2).val + 1) * 524288), term labR feat k e N = _
    have a : (0 : Fin 2).val * 524288 = 0 := by norm_num
    have b : ((0 : Fin 2).val + 1) * 524288 = 524288 := by norm_num
    rw [a, b]
  have e1 : partialSums labR feat (ix3 (1 : Fin 2) k e)
      = ∑ N ∈ Finset.Ico 524288 1048576, term labR feat k e N := by
    show ∑ N ∈ Finset.Ico ((1 : Fin 2).val * 524288) (((1 : Fin 2).val + 1) * 524288), term labR feat k e N = _
    have a : (1 : Fin 2).val * 524288 = 524288 := by norm_num
    have b : ((1 : Fin 2).val + 1) * 524288 = 1048576 := by norm_num
    rw [a, b]
  rw [Fin.sum_univ_two, e0, e1,
    Finset.sum_Ico_consecutive (term labR feat k e) (Nat.zero_le 524288) (by omega : 524288 ≤ 1048576),
    ← Finset.range_eq_Ico, Finset.sum_range]

/-- A sample's contribution, for a class below 1000 over remapped labels: its augmented row's entry when its label is
    the class, else zero. -/
theorem term_of_relabel (feat : (⟨2, ![1048576, 128]⟩ : Shape).Idx → EReal) (lab : (⟨1, ![1048576]⟩ : Shape).Idx → BitVec 32)
    (labR : (⟨2, ![1, 1048576]⟩ : Shape).Idx → BitVec 32) (hlab : ∀ N : Fin 1048576, labR (ix2 0 N) = relabel (lab (ix1 N)))
    (k : Fin 1024) (hk : k.val < 1000) (e : Fin 256) (N : Fin 1048576) :
    term labR feat k e N.val = if (lab (ix1 N)).toInt = (k.val : ℤ) then augv feat N e else 0 := by
  unfold term
  rw [dif_pos N.isLt]
  show hit k.val (labR (ix2 0 N)) * augv feat N e = _
  rw [hlab N, hit_relabel k.val hk, ite_mul, one_mul, zero_mul]

/-- The two halves together, for a class below 1000 and a feature column, over remapped labels: the class's feature sum. -/
theorem halves_sum (feat : (⟨2, ![1048576, 128]⟩ : Shape).Idx → EReal) (lab : (⟨1, ![1048576]⟩ : Shape).Idx → BitVec 32)
    (labR : (⟨2, ![1, 1048576]⟩ : Shape).Idx → BitVec 32) (hlab : ∀ N : Fin 1048576, labR (ix2 0 N) = relabel (lab (ix1 N)))
    (k : Fin 1000) (d : Fin 128) :
    (0 : EReal) + ∑ cc : Fin 2, partialSums labR feat (ix3 cc ⟨k.val, by omega⟩ ⟨d.val, by omega⟩) = classSum feat lab (ix2 k d) := by
  rw [zero_add, halves_all]
  unfold classSum
  refine Finset.sum_congr rfl (fun N _ => ?_)
  rw [term_of_relabel feat lab labR hlab _ k.isLt]
  -- column d is one of the 128 feature columns
  have hd : augv feat N ⟨d.val, by omega⟩ = feat (ix2 N d) := by
    unfold augv
    rw [dif_pos d.isLt]
  rw [hd]

/-- The same at column 128: the class's count. -/
theorem halves_count (feat : (⟨2, ![1048576, 128]⟩ : Shape).Idx → EReal) (lab : (⟨1, ![1048576]⟩ : Shape).Idx → BitVec 32)
    (labR : (⟨2, ![1, 1048576]⟩ : Shape).Idx → BitVec 32) (hlab : ∀ N : Fin 1048576, labR (ix2 0 N) = relabel (lab (ix1 N)))
    (k : Fin 1000) :
    (0 : EReal) + ∑ cc : Fin 2, partialSums labR feat (ix3 cc ⟨k.val, by omega⟩ ⟨128, by omega⟩) = classCount lab (ix1 k) := by
  rw [zero_add, halves_all]
  unfold classCount
  refine Finset.sum_congr rfl (fun N _ => ?_)
  rw [term_of_relabel feat lab labR hlab _ k.isLt]
  -- column 128 holds the one
  have hd : augv feat N ⟨128, by omega⟩ = 1 := by
    unfold augv
    rw [dif_neg (by simp), if_pos rfl]
  rw [hd]

/-- A block of 4096 consecutive sample numbers, counted from its start, is the range from the start to the next start. -/
theorem sum_block (f : ℕ → EReal) (n : ℕ) :
    ∑ i : Fin 4096, f (n * 4096 + i.val) = ∑ N ∈ Finset.Ico (n * 4096) ((n + 1) * 4096), f N := by
  have h : (n + 1) * 4096 - n * 4096 = 4096 := by omega
  rw [Finset.sum_Ico_eq_sum_range, h, Finset.sum_range]

/-- One block of 4096 samples added to a running sum over a range: the range grows by the block. -/
theorem term_block (labR : (⟨2, ![1, 1048576]⟩ : Shape).Idx → BitVec 32) (feat : (⟨2, ![1048576, 128]⟩ : Shape).Idx → EReal)
    (k : Fin 1024) (e : Fin 256) (lo n : ℕ) (hlo : lo ≤ n * 4096) :
    ∑ N ∈ Finset.Ico lo (n * 4096), term labR feat k e N + ∑ i : Fin 4096, term labR feat k e (n * 4096 + i.val)
      = ∑ N ∈ Finset.Ico lo ((n + 1) * 4096), term labR feat k e N := by
  rw [sum_block (term labR feat k e) n]
  exact Finset.sum_Ico_consecutive _ hlo (by omega)

end Cert.SegMean

end
-- ==== Proof.RefValue.lean ====
/-
  The reference at the ideal instance. Its two accumulating scatters add, into zeros, every update whose start index
  (the sample's label, read signed and not clamped) lands inside the operand: row `k` of the first receives the feature
  rows of the samples labelled `k`, entry `k` of the second a one per such sample; a label outside `[0, 1000)` lands
  nowhere. So the two results are the per-class sums and counts, and the reference's result is the shared tail of them.
-/
import proofs.«424271_j52948356825776_3_alg».proof.Proof.RefRun
import proofs.«424271_j52948356825776_3_alg».proof.Proof.Tail
import proofs.«424271_j52948356825776_3_alg».proof.Proof.Spec

noncomputable section

open scoped BigOperators

namespace Cert.SegMean

open Cert.ReferenceIdeal Cert.ReferenceIdeal.Gen Idealize.ShloMosaic Idealize.ShloMosaic.TcCoe Idealize.SL.Sem
open Idealize.ShloMosaic.ValueIdx

/-! ## Where an update lands -/

/-- An update lands at operand index `i` exactly when, on every axis, its start plus its window coordinate is `i`'s
    coordinate (being a coordinate, that sum is then inside the operand). -/
theorem resultIdx?_eq_some_iff {s si u : Shape} (d : ScatterDims s si u) {w : Nat} (j : u.Idx) (idx : IVec si w) (i : s.Idx) :
    d.resultIdx? j idx = some i ↔ ∀ a, d.start j idx a + (d.window j a : ℤ) = ((i a).val : ℤ) := by
  unfold ScatterDims.resultIdx?
  split_ifs with h
  · constructor
    · intro he a
      have h1 := Option.some.inj he
      have h2 := congrArg (fun f => (f a).val) h1
      simp only at h2
      have := h a
      omega
    · intro he
      refine congrArg some (funext fun a => Fin.ext ?_)
      have := he a; have := h a
      simp only; omega
  · constructor
    · intro he; cases he
    · intro he
      exact absurd (fun a => by have := he a; have := (i a).isLt; constructor <;> omega) h

/-- The accumulating scatter at the ideal instance, read at an index: the operand there plus every update landing there. -/
theorem scatterAdd_apply {s si u : Shape} {w : Nat} {φ : FTy} (d : ScatterDims s si u) (x : FVec Ideal s φ) (idx : IVec si w)
    (upd : FVec Ideal u φ) (i : s.Idx) :
    Host.scatterAdd (F := Ideal) d x idx upd i = x i + ∑ j, if d.resultIdx? j idx = some i then upd j else 0 := by
  show Ideal.hostScatterAdd d x idx upd i = _
  unfold Ideal.hostScatterAdd
  rw [Finset.sum_filter]

/-! ## The constants and the label column -/

/-- A splat of the zero word reads the extended real zero. -/
theorem zeros_apply {T : Shape} (h : S_.BroadcastsInDim T ![]) (i : T.Idx) :
    broadcastInDim T ![] h (constant (F := Ideal) S_ .f32 0x00000000#32) i = 0 := by
  show Ideal.ofBits .f32 0x00000000#32 = 0
  simp [Ideal.ofBits, Ideal.ieee]

/-- The word `0x3F800000` is the float one: sign 0, exponent 127, fraction 0, so `2^23 · 2^(127 - 127 - 23)`. -/
theorem ofBits_one_f32 : Ideal.ofBits .f32 0x3F800000#32 = 1 := by
  simp [Ideal.ofBits, Ideal.ieee]
  rw [← EReal.coe_mul]
  norm_num

/-- A splat of the word `0x3F800000` reads one. -/
theorem ones_apply {T : Shape} (h : S_.BroadcastsInDim T ![]) (i : T.Idx) :
    broadcastInDim T ![] h (constant (F := Ideal) S_ .f32 0x3F800000#32) i = 1 := by
  show Ideal.ofBits .f32 0x3F800000#32 = 1
  exact ofBits_one_f32

/-- The labels as a one-column matrix read, in row `N`, sample `N`'s label. -/
theorem labcol_apply (lab : IVec S1048576 32) (N : Fin 1048576) :
    broadcastInDim S1048576x1 ![0] bcast_S1048576_S1048576x1_0 lab (ix2 N 0) = lab (ix1 N) := by
  unfold broadcastInDim
  refine congrArg lab (funext fun a => ?_)
  match a with
  | ⟨0, _⟩ => rfl

/-- A rank-1 index set is its coordinate range … -/
def idx1Equiv {n : Nat} : (⟨1, ![n]⟩ : Shape).Idx ≃ Fin n where
  toFun i := i 0
  invFun := ix1
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) :=
  (Equiv.sum_comp (idx1Equiv (n := n)).symm f).symm

/-! ## The feature scatter: update `(N, e)` starts at row `label N`, column 0, and its window coordinate is `(0, e)` -/

/-- The feature scatter's dimension numbers. -/
abbrev d1 := scatter_S1000x128_S1048576x1_S1048576x128_1_0_0_1
/-- The count scatter's dimension numbers. -/
abbrev d2 := scatter_S1000_S1048576x1_S1048576_n_0_0_1

/-- Update `(N, e)` reads its one start component at row `N` of the scatter indices. -/
theorem siIdx1 (N : Fin 1048576) (e : Fin 128) (c : Fin d1.scatterDimsToOperandDims.length) :
    d1.siIdx (ix2 N e) c = ix2 N 0 := by
  funext b
  match b with
  | ⟨0, _⟩ => rfl
  | ⟨1, _⟩ =>
    apply Fin.ext
    have hc : c.val < 1 := c.isLt
    show c.val = 0
    omega

/-- On the class axis the start is the sample's scatter index, read signed. -/
theorem start1_0 (N : Fin 1048576) (e : Fin 128) (idx : IVec S1048576x1 32) :
    d1.start (ix2 N e) idx (0 : Fin 2) = (idx (ix2 N 0)).toInt := by
  unfold ScatterDims.start
  rw [dif_pos (by decide), siIdx1]

/-- On the column axis, which the index map does not name, the start is 0. -/
theorem start1_1 (N : Fin 1048576) (e : Fin 128) (idx : IVec S1048576x1 32) :
    d1.start (ix2 N e) idx (1 : Fin 2) = 0 := by
  unfold ScatterDims.start
  rw [dif_neg (by decide)]

/-- The class axis is an inserted window axis: window coordinate 0. -/
theorem window1_0 (N : Fin 1048576) (e : Fin 128) : d1.window (ix2 N e) (0 : Fin 2) = 0 := by
  unfold ScatterDims.window
  rw [dif_neg (by decide)]

/-- The column axis is the one window axis: window coordinate `e`. -/
theorem window1_1 (N : Fin 1048576) (e : Fin 128) : d1.window (ix2 N e) (1 : Fin 2) = e.val := by
  unfold ScatterDims.window
  rw [dif_pos (by decide)]
  rfl

/-- Update `(N, e)` lands at `(k, dd)` exactly when sample `N`'s scatter index is `k` and `e` is `dd`. -/
theorem lands1 (N : Fin 1048576) (e : Fin 128) (idx : IVec S1048576x1 32) (k : Fin 1000) (dd : Fin 128) :
    d1.resultIdx? (ix2 N e) idx = some (ix2 k dd) ↔ (idx (ix2 N 0)).toInt = (k.val : ℤ) ∧ e = dd := by
  rw [resultIdx?_eq_some_iff, Fin.forall_fin_two, start1_0, start1_1, window1_0, window1_1, Fin.ext_iff]
  show ((idx (ix2 N 0)).toInt + ((0 : ℕ) : ℤ) = (k.val : ℤ) ∧ (0 : ℤ) + (e.val : ℤ) = (dd.val : ℤ)) ↔ _
  omega

/-- One sample's row of updates meets row `k`, column `dd` of the operand in at most one element: column `dd`, when
    the sample's start is `k`. -/
theorem row_sum (feat : FVec Ideal S1048576x128 .f32) (idx : IVec S1048576x1 32) (N : Fin 1048576) (k : Fin 1000) (dd : Fin 128) :
    (∑ e : Fin 128, if d1.resultIdx? (ix2 N e) idx = some (ix2 k dd) then feat (ix2 N e) else 0)
      = if (idx (ix2 N 0)).toInt = (k.val : ℤ) then feat (ix2 N dd) else 0 := by
  simp only [lands1]
  by_cases h : (idx (ix2 N 0)).toInt = (k.val : ℤ)
  · simp only [h, true_and, if_true, Finset.sum_ite_eq', Finset.mem_univ]
  · simp only [h, false_and, if_false, Finset.sum_const_zero]

/-! ## The count scatter: update `N` starts at `label N`; there is no window axis -/

/-- Update `N` reads its one start component at row `N` of the scatter indices. -/
theorem siIdx2 (N : Fin 1048576) (c : Fin d2.scatterDimsToOperandDims.length) :
    d2.siIdx (ix1 N) c = ix2 N 0 := by
  funext b
  match b with
  | ⟨0, _⟩ => rfl
  | ⟨1, _⟩ =>
    apply Fin.ext
    have hc : c.val < 1 := c.isLt
    show c.val = 0
    omega

/-- The start is the sample's scatter index, read signed. -/
theorem start2_0 (N : Fin 1048576) (idx : IVec S1048576x1 32) :
    d2.start (ix1 N) idx (0 : Fin 1) = (idx (ix2 N 0)).toInt := by
  unfold ScatterDims.start
  rw [dif_pos (by decide), siIdx2]

/-- The operand's one axis is an inserted window axis: window coordinate 0. -/
theorem window2_0 (N : Fin 1048576) : d2.window (ix1 N) (0 : Fin 1) = 0 := by
  unfold ScatterDims.window
  rw [dif_neg (by decide)]

/-- Update `N` lands at `k` exactly when sample `N`'s scatter index is `k`. -/
theorem lands2 (N : Fin 1048576) (idx : IVec S1048576x1 32) (k : Fin 1000) :
    d2.resultIdx? (ix1 N) idx = some (ix1 k) ↔ (idx (ix2 N 0)).toInt = (k.val : ℤ) := by
  rw [resultIdx?_eq_some_iff, Fin.forall_fin_one, start2_0, window2_0]
  show (idx (ix2 N 0)).toInt + ((0 : ℕ) : ℤ) = (k.val : ℤ) ↔ _
  omega

/-! ## The two scatters, and the reference's run -/

/-- The feature scatter, into zeros, is the per-class feature sum. -/
theorem ref_sums (feat : FVec Ideal S1048576x128 .f32) (lab : IVec S1048576 32) :
    Host.scatterAdd (F := Ideal) scatter_S1000x128_S1048576x1_S1048576x128_1_0_0_1
      (broadcastInDim S1000x128 ![] bcast_S_S1000x128 (constant S_ .f32 0x00000000#32))
      (broadcastInDim S1048576x1 ![0] bcast_S1048576_S1048576x1_0 lab) feat
    = classSum feat lab := by
  funext i
  obtain ⟨k, dd, rfl⟩ : ∃ k dd, i = ix2 k dd := ⟨i 0, i 1, eq_ix2 i⟩
  refine (scatterAdd_apply _ _ _ _ _).trans ?_
  refine (congrArg₂ (· + ·) (zeros_apply _ _) (sum_idx2 _)).trans ?_
  refine (zero_add _).trans ?_
  unfold classSum
  refine Finset.sum_congr rfl fun N _ => ?_
  refine (row_sum _ _ _ _ _).trans ?_
  rw [labcol_apply]

/-- The scatter of ones, into zeros, is the per-class count. -/
theorem ref_counts (lab : IVec S1048576 32) :
    Host.scatterAdd (F := Ideal) scatter_S1000_S1048576x1_S1048576_n_0_0_1
      (broadcastInDim S1000 ![] bcast_S_S1000 (constant S_ .f32 0x00000000#32))
      (broadcastInDim S1048576x1 ![0] bcast_S1048576_S1048576x1_0 lab)
      (broadcastInDim S1048576 ![] bcast_S_S1048576 (constant S_ .f32 0x3F800000#32))
    = classCount lab := by
  funext i
  obtain ⟨k, rfl⟩ : ∃ k, i = ix1 k := ⟨i 0, eq_ix1 i⟩
  refine (scatterAdd_apply _ _ _ _ _).trans ?_
  refine (congrArg₂ (· + ·) (zeros_apply _ _) (sum_idx1 _)).trans ?_
  refine (zero_add _).trans ?_
  unfold classCount
  refine Finset.sum_congr rfl fun N _ => ?_
  show _ = if (lab (ix1 N)).toInt = (k.val : ℤ) then (1 : EReal) else 0
  exact if_congr ((lands2 N _ k).trans (by rw [labcol_apply])) (ones_apply _ _) rfl

/-- The shared tail at the two scatters is the shared tail at the per-class sums and counts. -/
theorem tail_ref (feat : FVec Ideal S1048576x128 .f32) (lab : IVec S1048576 32) (protos : FVec Ideal S1000x128 .f32) :
    tail (F := Ideal)
      (Host.scatterAdd scatter_S1000x128_S1048576x1_S1048576x128_1_0_0_1
        (broadcastInDim S1000x128 ![] bcast_S_S1000x128 (constant S_ .f32 0x00000000#32))
        (broadcastInDim S1048576x1 ![0] bcast_S1048576_S1048576x1_0 lab) feat)
      (Host.scatterAdd scatter_S1000_S1048576x1_S1048576_n_0_0_1
        (broadcastInDim S1000 ![] bcast_S_S1000 (constant S_ .f32 0x00000000#32))
        (broadcastInDim S1048576x1 ![0] bcast_S1048576_S1048576x1_0 lab)
        (broadcastInDim S1048576 ![] bcast_S_S1048576 (constant S_ .f32 0x3F800000#32)))
      protos
    = tail (classSum feat lab) (classCount lab) protos := by
  rw [ref_sums, ref_counts]

/-- The reference's run: its result is the shared tail of the per-class sums and counts of its arguments. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v25)
        = tail (F := Ideal) (classSum (m ((c.tc : Thread nD τ).loc main_arg0)) (m ((c.tc : Thread nD τ).loc main_arg1)))
            (classCount (m ((c.tc : Thread nD τ).loc main_arg1))) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  -- the generated run's result term is the shared tail, unfolded, at the two scatters
  exact (θ_run defs _ _).mono
    (fun _ h c => ⟨(h c).1.trans (tail_ref (m ((c.tc : Thread nD τ).loc main_arg0)) (m ((c.tc : Thread nD τ).loc main_arg1))
      (m ((c.tc : Thread nD τ).loc main_arg2))), (h c).2⟩)
    (Cert.ReferenceIdeal.Value.run (F := Ideal) m ρ)

end Cert.SegMean

end
-- ==== Proof.KernelBody.lean ====
/-
  The kernel's body, read as values at any float instance. At every grid point it rebuilds its scratch (the feature
  block in columns [0, 128), the indicator of column 0 in columns [128, 256)), multiplies the one-hot matrix of the
  point's labels by it, and adds the product to the output block: at a core's first point to the zero block it has just
  stored, at every later point to what the point before left there.
-/
import proofs.«424271_j52948356825776_3_alg».proof.Proof.Gen.KernelIdeal.Frame
import Idealize.ShloMosaic.Lib.Pipeline.Value
import Idealize.ShloMosaic.Lib.Tactic

set_option maxRecDepth 16384

noncomputable section

namespace Cert.KernelIdeal.KAcc

open Cert.KernelIdeal Cert.KernelIdeal.Gen Idealize.ShloMosaic Idealize.ShloMosaic.TcCoe Idealize.SL.Sem Idealize.ShloMosaic.Tactic

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- The scratch as the product reads it: the later store (columns [128, 256)) over the earlier one (columns [0, 128)). -/
def scr (x0 : Vec F S4096x128 .f32) : Vec F S4096x256 .bf16 :=
  View.canon [⟨Rect.unit ![0, 128] S4096x128.size inb_S4096x256_S4096x128_0_128, k0_pay3⟩,
    ⟨Rect.unit ![0, 0] S4096x128.size inb_S4096x256_S4096x128_0_0, k0_pay2 x0⟩]

/-- A point that is not a core's first: the block holding `xo2` ends at the product's payload over `xo2`. -/
theorem out_B (c : Dev nD) (i : grid0.Coords) (a2 : Memref sig .tc .vmem S4096x128 .f32) (h2 : a2.IsWhole)
    (a3 : Memref sig .tc .vmem S1x4096 .i32) (h3 : a3.IsWhole) (a4 : Memref sig .tc .vmem S1x1024x256 .f32) (h4 : a4.IsWhole)
    (a5 : Memref sig .tc .vmem S4096x256 .bf16) (h5 : a5.IsWhole) (hc : ¬cond0_0 i)
    (x0 : Vec F S4096x128 .f32) (x1 : Vec F S1x4096 .i32) (xo2 : Vec F S1x1024x256 .f32) :
    out0_B_2 c i a2 h2 a3 h3 a4 h4 a5 h5 hc x0 x1 xo2 = k0_pay4 x1 xo2 (scr x0) := by
  unfold out0_B_2
  rw [View.read_writes_eq_canon _ _ _ (cover0_B_2 c i a2 h2 a3 h3 a4 h4 a5 h5 hc x0 x1 xo2)]
  unfold kernelRun0_B
  dsimp only
  sl_unfold_words
  rw [View.canon_unit_zero hz3]
  simp only [View.readAt_eq_ld, h2.read_unread, h3.read_unread, h4.read_unread, View.ld_unit_zero (S := S1x4096) hz2,
    View.ld_unit_zero (S := S4096x128) hz2, View.ld_unit_zero (S := S1x1024x256) hz3, View.readCov_eq_canon']
  exact congrArg (k0_pay4 x1 xo2) (View.ld_unit_zero (S := S4096x256) hz2 inb_S4096x256_S4096x256_0_0 (scr x0))

/-- A core's first point: the zero block is stored, read back, and the product's payload over it left. -/
theorem out_A (c : Dev nD) (i : grid0.Coords) (a2 : Memref sig .tc .vmem S4096x128 .f32) (h2 : a2.IsWhole)
    (a3 : Memref sig .tc .vmem S1x4096 .i32) (h3 : a3.IsWhole) (a4 : Memref sig .tc .vmem S1x1024x256 .f32) (h4 : a4.IsWhole)
    (a5 : Memref sig .tc .vmem S4096x256 .bf16) (h5 : a5.IsWhole) (hc : cond0_0 i)
    (x0 : Vec F S4096x128 .f32) (x1 : Vec F S1x4096 .i32) :
    out0_A_2 c i a2 h2 a3 h3 a4 h4 a5 h5 hc x0 x1 = k0_pay4 x1 k0_pay1 (scr x0) := by
  unfold out0_A_2
  rw [View.read_writes_eq_canon _ _ _ (cover0_A_2 c i a2 h2 a3 h3 a4 h4 a5 h5 hc x0 x1)]
  unfold kernelRun0_A
  dsimp only
  sl_unfold_words
  rw [View.canon_cons_unit_zero (S := S1x1024x256) hz3, View.readCov_unit_zero (S := S1x1024x256) _ hz3]
  simp only [View.readAt_eq_ld, h2.read_unread, h3.read_unread, View.ld_unit_zero (S := S1x4096) hz2,
    View.ld_unit_zero (S := S4096x128) hz2, View.readCov_eq_canon']
  exact congrArg (k0_pay4 x1 k0_pay1) (View.ld_unit_zero (S := S4096x256) hz2 inb_S4096x256_S4096x256_0_0 (scr x0))

end Cert.KernelIdeal.KAcc

end
-- ==== Proof.KernelPay.lean ====
/-
  The body's arithmetic at one entry, over the extended reals. Row `k`, column `e` of what a grid point leaves is the
  entry the block held before plus the sum, over the point's 4096 samples `n`, of the one-hot entry (one when row
  `k`'s word is sample `n`'s label word, else zero) times the scratch's entry `(n, e)`; and the scratch's entry is the
  sample's feature in columns below 128, one in column 128, zero beyond.
-/
import proofs.«424271_j52948356825776_3_alg».proof.Proof.KernelBody
import proofs.«424271_j52948356825776_3_alg».proof.Proof.Spec
import Idealize.ShloMosaic.Lib.ValueIdx
import Idealize.ShloMosaic.PureOps.Ideal.Laws

set_option maxRecDepth 16384

noncomputable section

open scoped BigOperators

namespace Cert.KernelIdeal.KAcc

open Cert.KernelIdeal Cert.KernelIdeal.Gen Idealize.ShloMosaic Idealize.ShloMosaic.TcCoe Idealize.SL.Sem
open Idealize.ShloMosaic.ValueIdx

/-- The product's dimension numbers: rows of the left operand against columns of the right, one contracted axis. -/
abbrev D := dot_S1024x4096_S4096x256_S1024x256_1_0_0_1_n_n

theorem lhs_0 (i : S1024x256.Idx) (q : D.contr.Idx) : (D.lhsIdx i q 0).val = (i 0).val := by
  unfold DotDims.lhsIdx
  rw [dif_neg (show ¬(0 : Fin S1024x4096.rank) ∈ D.lhsBatch by decide), dif_pos (show (0 : Fin S1024x4096.rank) ∈ D.lhsNonContracting by decide)]
  rfl
theorem lhs_1 (i : S1024x256.Idx) (q : D.contr.Idx) : (D.lhsIdx i q 1).val = (q ⟨0, by decide⟩).val :=
  D.lhsIdx_val_of_single rfl i q
theorem rhs_0 (i : S1024x256.Idx) (q : D.contr.Idx) : (D.rhsIdx i q 0).val = (q ⟨0, by decide⟩).val :=
  D.rhsIdx_val_of_single rfl i q
theorem rhs_1 (i : S1024x256.Idx) (q : D.contr.Idx) : (D.rhsIdx i q 1).val = (i 1).val := by
  unfold DotDims.rhsIdx
  rw [dif_neg (show ¬(1 : Fin S4096x256.rank) ∈ D.rhsBatch by decide), dif_pos (show (1 : Fin S4096x256.rank) ∈ D.rhsNonContracting by decide)]
  rfl

/-- The product into the zero accumulator, at `(k, e)`: the sum over the contracted axis. -/
theorem mm_apply (lhs : FVec Ideal S1024x4096 .bf16) (rhs : FVec Ideal S4096x256 .bf16) (k : Fin 1024) (e : Fin 256) :
    matmul D none lhs rhs (constant S1024x256 .f32 0x00000000#32) (ix2 k e) = ∑ n : Fin 4096, lhs (ix2 k n) * rhs (ix2 n e) := by
  simp only [matmul]
  rw [Ideal.matmul_constant_zero_apply, ← Equiv.sum_comp (contrEquiv1 D 4096 rfl rfl).symm]
  refine Finset.sum_congr rfl fun n _ => ?_
  have hk := contrEquiv1_symm_val D 4096 rfl rfl n
  have el : D.lhsIdx (ix2 k e) ((contrEquiv1 D 4096 rfl rfl).symm n) = ix2 k n := funext fun a => Fin.ext (by
    match a with
    | ⟨0, _⟩ => exact lhs_0 _ _
    | ⟨1, _⟩ => exact (lhs_1 _ _).trans hk)
  have er : D.rhsIdx (ix2 k e) ((contrEquiv1 D 4096 rfl rfl).symm n) = ix2 n e := funext fun a => Fin.ext (by
    match a with
    | ⟨0, _⟩ => exact (rhs_0 _ _).trans hk
    | ⟨1, _⟩ => exact rhs_1 _ _)
  rw [el, er]

/-- A compared pair of words, widened and converted: one when the words are equal, else zero. -/
theorem onehot_word (a b : BitVec 32) :
    FloatOps.sitofp (F := Ideal) .f32 ((IntOp.cmpi .eq a b).setWidth 32) = if a = b then (1 : EReal) else 0 := by
  show (((((IntOp.cmpi .eq a b).setWidth 32).toInt : ℝ)) : EReal) = _
  simp only [IntOp.cmpi]
  by_cases h : a = b
  · rw [if_pos h, show (a == b) = true from by simpa using h]
    have e1 : ((BitVec.ofBool true).setWidth 32).toInt = 1 := by decide
    rw [e1]; norm_num
  · rw [if_neg h, show (a == b) = false from by simpa using h]
    have e0 : ((BitVec.ofBool false).setWidth 32).toInt = 0 := by decide
    rw [e0]; norm_num

/-- The one-hot matrix at `(k, n)`: row `k`'s word against sample `n`'s label word. -/
theorem onehot_apply (x1 : Vec Ideal S1x4096 .i32) (k : Fin 1024) (n : Fin 4096) :
    (truncf .bf16 (sitofp .f32 (extui 32 (cmpi .eq
        (broadcastTo S1024x4096 (iota .tc S1024x1 32 [0] iota_S1024x1_d0_w32) broadcasts_S1024x1_S1024x4096)
        (broadcastTo S1024x4096 (shapeCast S1x4096 x1 shapeCasts_S1x4096_S1x4096) broadcasts_S1x4096_S1024x4096)) natLt_1_32))
        bitsLt_bf16_f32 : FVec Ideal S1024x4096 .bf16) (ix2 k n)
      = Cert.SegMean.hit k.val (x1 (ix2 0 n)) := by
  show FloatOps.sitofp (F := Ideal) .f32 ((IntOp.cmpi .eq
      (broadcastTo S1024x4096 (iota .tc S1024x1 32 [0] iota_S1024x1_d0_w32) broadcasts_S1024x1_S1024x4096 (ix2 k n))
      (broadcastTo S1024x4096 (shapeCast S1x4096 x1 shapeCasts_S1x4096_S1x4096) broadcasts_S1x4096_S1024x4096 (ix2 k n))).setWidth 32) = _
  rw [broadcastTo_apply _ broadcasts_S1024x1_S1024x4096 (ix2 k n) (ix2 k 0) (fun a => by match a with | ⟨0, _⟩ => rfl | ⟨1, _⟩ => rfl),
    broadcastTo_apply _ broadcasts_S1x4096_S1024x4096 (ix2 k n) (ix2 0 n) (fun a => by match a with | ⟨0, _⟩ => rfl | ⟨1, _⟩ => rfl),
    iota_single_apply, shapeCast_self, onehot_word]
  rfl

/-- The scratch below column 128: the sample's feature. -/
theorem scr_lo (x0 : Vec Ideal S4096x128 .f32) (n : Fin 4096) (e : Fin 256) (h : e.val < 128) :
    scr x0 (ix2 n e) = x0 (ix2 n ⟨e.val, h⟩) := by
  unfold scr
  rw [View.canon_cons_of_not_mem _ _ (by
    rw [Rect.mem_set_unit]
    intro hall
    have := (hall 1).1
    have h1 : ((ix2 n e : S4096x256.Idx) 1 : Nat) = e.val := rfl
    have h2 : (![0, 128] : Fin 2 → Nat) 1 = 128 := rfl
    omega)]
  have hemb : (ix2 n e : S4096x256.Idx)
      = (Rect.unit (s := S4096x256) ![0, 0] S4096x128.size inb_S4096x256_S4096x128_0_0).emb (ix2 n ⟨e.val, h⟩) := funext fun a => Fin.ext (by
    match a with
    | ⟨0, _⟩ => show n.val = 0 + 1 * n.val; omega
    | ⟨1, _⟩ => show e.val = 0 + 1 * e.val; omega)
  rw [hemb, View.canon_cons_emb]
  unfold k0_pay2
  show shapeCast S4096x128 (truncf (F := Ideal) .bf16 x0 bitsLt_bf16_f32) shapeCasts_S4096x128_S4096x128 (ix2 n ⟨e.val, h⟩) = _
  rw [shapeCast_self]
  rfl

/-- The scratch from column 128 on: the indicator of column 128. -/
theorem scr_hi (x0 : Vec Ideal S4096x128 .f32) (n : Fin 4096) (e : Fin 256) (h : 128 ≤ e.val) :
    scr x0 (ix2 n e) = if e.val = 128 then (1 : EReal) else 0 := by
  unfold scr
  have he : e.val - 128 < 128 := by have := e.isLt; omega
  have hemb : (ix2 n e : S4096x256.Idx)
      = (Rect.unit (s := S4096x256) ![0, 128] S4096x128.size inb_S4096x256_S4096x128_0_128).emb (ix2 n ⟨e.val - 128, he⟩) := funext fun a => Fin.ext (by
    match a with
    | ⟨0, _⟩ => show n.val = 0 + 1 * n.val; omega
    | ⟨1, _⟩ => show e.val = 128 + 1 * (e.val - 128); omega)
  rw [hemb, View.canon_cons_emb]
  unfold k0_pay3
  show shapeCast S4096x128 (truncf .bf16 (sitofp .f32 (extui 32 (cmpi .eq (iota .tc S4096x128 32 [1] iota_S4096x128_d1_w32)
      (broadcast S4096x128 0#32)) natLt_1_32)) bitsLt_bf16_f32) shapeCasts_S4096x128_S4096x128 (ix2 n ⟨e.val - 128, he⟩) = _
  rw [shapeCast_self]
  show FloatOps.sitofp (F := Ideal) .f32 ((IntOp.cmpi .eq (iota .tc S4096x128 32 [1] iota_S4096x128_d1_w32 (ix2 n ⟨e.val - 128, he⟩)) 0#32).setWidth 32) = _
  rw [iota_single_apply, onehot_word]
  show (if BitVec.ofNat 32 (e.val - 128) = 0#32 then (1 : EReal) else 0) = _
  have hiff : BitVec.ofNat 32 (e.val - 128) = 0#32 ↔ e.val = 128 := by
    constructor
    · intro hh
      have := congrArg BitVec.toNat hh
      rw [BitVec.toNat_ofNat, Nat.mod_eq_of_lt (by omega)] at this
      simp at this
      omega
    · intro hh; rw [hh]
  by_cases h128 : e.val = 128
  · rw [if_pos (hiff.mpr h128), if_pos h128]
  · rw [if_neg (fun hh => h128 (hiff.mp hh)), if_neg h128]

/-- The zero block. -/
theorem pay1_apply (j : S1x1024x256.Idx) : k0_pay1 (F := Ideal) j = 0 := by
  unfold k0_pay1
  show Ideal.ofBits .f32 0x00000000#32 = 0
  exact Ideal.ofBits_zero_f32

/-- What a grid point leaves at `(0, k, e)`: the entry before plus the block's one-hot product. -/
theorem pay4_apply (x1 : Vec Ideal S1x4096 .i32) (prev : Vec Ideal S1x1024x256 .f32) (sc : Vec Ideal S4096x256 .bf16)
    (k : Fin 1024) (e : Fin 256) :
    k0_pay4 x1 prev sc (ix3 0 k e)
      = prev (ix3 0 k e) + ∑ n : Fin 4096, Cert.SegMean.hit k.val (x1 (ix2 0 n)) * sc (ix2 n e) := by
  unfold k0_pay4
  refine (shapeCast_apply _ shapeCasts_S1024x256_S1x1024x256 (ix3 0 k e) (ix2 k e) (by
    rw [Shape.rowMajor_val_two, Shape.rowMajor_val_three]
    show k.val * 256 + e.val = ((0 : Fin 1).val * 1024 + k.val) * 256 + e.val
    simp)).trans ?_
  refine (addf_apply _ _ _).trans ?_
  refine congrArg₂ (· + ·) ?_ ?_
  · exact shapeCast_apply _ shapeCasts_S1x1024x256_S1024x256 (ix2 k e) (ix3 0 k e) (by
      rw [Shape.rowMajor_val_two, Shape.rowMajor_val_three]
      show ((0 : Fin 1).val * 1024 + k.val) * 256 + e.val = k.val * 256 + e.val
      simp)
  · refine (mm_apply _ _ k e).trans ?_
    refine Finset.sum_congr rfl fun n _ => ?_
    exact congrArg (· * sc (ix2 n e)) (onehot_apply x1 k n)

end Cert.KernelIdeal.KAcc

end
-- ==== Proof.KernelBlocks.lean ====
/-
  How a grid point's input blocks sit in the arrays, over the extended reals. The grid's 256 points run in order; point
  `t` reads rows `[4096 t, 4096 (t + 1))` of the features and the same columns of the remapped label row, so entry
  `n` of its blocks is sample `4096 t + n`; and its one-hot product at `(k, e)` is the sum of those samples'
  contributions to row `k`, column `e`.
-/
import proofs.«424271_j52948356825776_3_alg».proof.Proof.KernelPay
import Idealize.ShloMosaic.Lib.Pipeline.Value

set_option maxRecDepth 16384

noncomputable section

open scoped BigOperators

namespace Cert.KernelIdeal.KAcc

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- The features and the remapped label row as the region finds them, and the two input blocks of a point. -/
abbrev feat (c : Dev nD) : Vec Ideal S1048576x128 .f32 := V m c main_arg0
abbrev labR (c : Dev nD) : Vec Ideal S1x1048576 .i32 := V m c main_v6
abbrev fblk (c : Dev nD) (t : Fin cfg0.N) : Vec Ideal S4096x128 .f32 := iblk m c 0 t
abbrev lblk (c : Dev nD) (t : Fin cfg0.N) : Vec Ideal S1x4096 .i32 := iblk m c 1 t

/-- The printed index maps over the grid: point `t` reads row block `t` of the features and column block `t` of the
    label row, and writes block `t / 128` of the result. -/
theorem idx_facts : ∀ t : Fin cfg0.N, win0_0.index t (0 : Fin 2) = t.val ∧ win0_0.index t (1 : Fin 2) = 0
    ∧ win0_1.index t (0 : Fin 2) = 0 ∧ win0_1.index t (1 : Fin 2) = t.val
    ∧ win0_2.index t (0 : Fin 3) = t.val / 128 ∧ win0_2.index t (1 : Fin 3) = 0 ∧ win0_2.index t (2 : Fin 3) = 0 :=
  (by decide +kernel : ∀ t : Fin grid0.N, _)

theorem lt_N (t : Fin cfg0.N) : t.val < 256 := lt_of_lt_of_eq t.isLt (show cfg0.N = 256 from N_0)

/-- Row `n` of point `t`'s feature block is sample `4096 t + n`. -/
theorem fblk_apply (c : Dev nD) (t : Fin cfg0.N) (n : Fin 4096) (d : Fin 128) (hN : t.val * 4096 + n.val < 1048576) :
    fblk m c t (ix2 n d) = feat m c (ix2 ⟨t.val * 4096 + n.val, hN⟩ d) := by
  obtain ⟨e0, e1, -⟩ := idx_facts t
  show V m c main_arg0 (((cfg0.win 0).blk t).view.emb (ix2 n d)) = V m c main_arg0 _
  refine congrArg (V m c main_arg0) (funext fun a => Fin.ext ?_)
  match a with
  | ⟨0, _⟩ => show win0_0.index t (0 : Fin 2) * 4096 + 1 * n.val = t.val * 4096 + n.val; rw [e0]; omega
  | ⟨1, _⟩ => show win0_0.index t (1 : Fin 2) * 128 + 1 * d.val = d.val; rw [e1]; omega

/-- Entry `n` of point `t`'s label block is sample `4096 t + n`'s label. -/
theorem lblk_apply (c : Dev nD) (t : Fin cfg0.N) (n : Fin 4096) (hN : t.val * 4096 + n.val < 1048576) :
    lblk m c t (ix2 0 n) = labR m c (ix2 0 ⟨t.val * 4096 + n.val, hN⟩) := by
  obtain ⟨-, -, e2, e3, -⟩ := idx_facts t
  show V m c main_v6 (((cfg0.win 1).blk t).view.emb (ix2 0 n)) = V m c main_v6 _
  refine congrArg (V m c main_v6) (funext fun a => Fin.ext ?_)
  match a with
  | ⟨0, _⟩ => show win0_1.index t (0 : Fin 2) * 1 + 1 * (0 : Fin 1).val = (0 : Fin 1).val; rw [e2]; simp
  | ⟨1, _⟩ => show win0_1.index t (1 : Fin 2) * 4096 + 1 * n.val = t.val * 4096 + n.val; rw [e3]; omega

/-- A point's one-hot product at `(k, e)` is its block's samples' contributions. -/
theorem step_sum (c : Dev nD) (t : Fin cfg0.N) (k : Fin 1024) (e : Fin 256) :
    ∑ i : Fin 4096, Cert.SegMean.hit k.val (lblk m c t (ix2 0 i)) * scr (fblk m c t) (ix2 i e)
      = ∑ i : Fin 4096, Cert.SegMean.term (labR m c) (feat m c) k e (t.val * 4096 + i.val) := by
  refine Finset.sum_congr rfl fun i _ => ?_
  have ht := lt_N t
  have hN : t.val * 4096 + i.val < 1048576 := by have := i.isLt; omega
  unfold Cert.SegMean.term
  rw [dif_pos hN, lblk_apply m c t i hN]
  refine congrArg (Cert.SegMean.hit k.val (labR m c (ix2 0 ⟨t.val * 4096 + i.val, hN⟩)) * ·) ?_
  unfold Cert.SegMean.augv
  by_cases he : e.val < 128
  · rw [dif_pos he, scr_lo _ i e he, fblk_apply m c t i ⟨e.val, he⟩ hN]
  · rw [dif_neg he, scr_hi _ i e (by omega)]

end Cert.KernelIdeal.KAcc

end
-- ==== Proof.KernelAcc.lean ====
/-
  The accumulation over the grid, over the extended reals. Core `t / 128` owns points `[128 (t / 128), 128 (t / 128) + 128)`.
  After point `t` the output block holds, at row `k` and column `e`, the sum of the samples' contributions from the
  core's first sample up to the end of point `t`'s block: by induction on the point, a core's first point starting from
  the zero block it stores, every later point adding its block to what the point before left.
-/
import proofs.«424271_j52948356825776_3_alg».proof.Proof.KernelBlocks

set_option maxRecDepth 16384

noncomputable section

open scoped BigOperators

namespace Cert.KernelIdeal.KAcc

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- What the output block holds after point `n`: the contributions from the core's first sample to the end of block `n`. -/
def accAt (c : Dev nD) (n : ℕ) : Vec Ideal S1x1024x256 .f32 :=
  fun y => ∑ N ∈ Finset.Ico ((n / 128) * 524288) ((n + 1) * 4096), Cert.SegMean.term (labR m c) (feat m c) (y 1) (y 2) N

/-- The running sum at an index depends on its row and column only. -/
theorem accAt_congr (c : Dev nD) (n : ℕ) (Y Y' : S1x1024x256.Idx) (h1 : Y 1 = Y' 1) (h2 : Y 2 = Y' 2) :
    accAt m c n Y = accAt m c n Y' := by
  show ∑ N ∈ Finset.Ico ((n / 128) * 524288) ((n + 1) * 4096), Cert.SegMean.term (labR m c) (feat m c) (Y 1) (Y 2) N
    = ∑ N ∈ Finset.Ico ((n / 128) * 524288) ((n + 1) * 4096), Cert.SegMean.term (labR m c) (feat m c) (Y' 1) (Y' 2) N
  rw [h1, h2]

/-- A core's first point: zero plus the block. -/
theorem acc_first (c : Dev nD) (n : ℕ) (h0 : n % 128 = 0) (k : Fin 1024) (e : Fin 256) :
    (0 : EReal) + ∑ i : Fin 4096, Cert.SegMean.term (labR m c) (feat m c) k e (n * 4096 + i.val) = accAt m c n (ix3 0 k e) := by
  have hb := Cert.SegMean.term_block (labR m c) (feat m c) k e (n * 4096) n (le_refl _)
  rw [Finset.Ico_self, Finset.sum_empty] at hb
  have e1 : (n / 128) * 524288 = n * 4096 := by omega
  show _ = ∑ N ∈ Finset.Ico ((n / 128) * 524288) ((n + 1) * 4096), Cert.SegMean.term (labR m c) (feat m c) k e N
  rw [e1]
  exact hb

/-- A later point: what the point before left plus the block. -/
theorem acc_next (c : Dev nD) (n : ℕ) (h0 : ¬(n + 1) % 128 = 0) (k : Fin 1024) (e : Fin 256) :
    accAt m c n (ix3 0 k e) + ∑ i : Fin 4096, Cert.SegMean.term (labR m c) (feat m c) k e ((n + 1) * 4096 + i.val)
      = accAt m c (n + 1) (ix3 0 k e) := by
  have hb := Cert.SegMean.term_block (labR m c) (feat m c) k e ((n / 128) * 524288) (n + 1) (by omega)
  have e1 : ((n + 1) / 128) * 524288 = (n / 128) * 524288 := by omega
  show ∑ N ∈ Finset.Ico ((n / 128) * 524288) ((n + 1) * 4096), Cert.SegMean.term (labR m c) (feat m c) k e N + _
    = ∑ N ∈ Finset.Ico (((n + 1) / 128) * 524288) ((n + 1 + 1) * 4096), Cert.SegMean.term (labR m c) (feat m c) k e N
  rw [e1]
  exact hb

/-- After a core's last point the running sum is the core's whole half of the samples. -/
theorem acc_last (c : Dev nD) (n : ℕ) (h127 : n % 128 = 127) (hq : n / 128 < 2) (k : Fin 1024) (e : Fin 256) :
    accAt m c n (ix3 0 k e) = Cert.SegMean.partialSums (labR m c) (feat m c) (ix3 ⟨n / 128, hq⟩ k e) := by
  show ∑ N ∈ Finset.Ico ((n / 128) * 524288) ((n + 1) * 4096), Cert.SegMean.term (labR m c) (feat m c) k e N
    = ∑ N ∈ Finset.Ico ((n / 128) * 524288) ((n / 128 + 1) * 524288), Cert.SegMean.term (labR m c) (feat m c) k e N
  have e1 : (n + 1) * 4096 = (n / 128 + 1) * 524288 := by omega
  rw [e1]

/-- The output block after every point, by induction on the point. -/
theorem outsAt_eq (c : Dev nD) : ∀ (n : ℕ) (h : n < cfg0.N), outsAt0 m c n h = accAt m c n
  | 0, h => by
    rw [outsAt0_A m c ⟨0, h⟩ rfl, out_A]
    funext y
    obtain ⟨a, k, e, rfl⟩ : ∃ (a : Fin 1) (k : Fin 1024) (e : Fin 256), y = ix3 a k e := ⟨y 0, y 1, y 2, eq_ix3 y⟩
    obtain rfl : a = 0 := Subsingleton.elim _ _
    refine (pay4_apply (lblk m c ⟨0, h⟩) (k0_pay1 (F := Ideal)) (scr (fblk m c ⟨0, h⟩)) k e).trans ?_
    rw [pay1_apply, step_sum m c ⟨0, h⟩ k e]
    exact acc_first m c 0 rfl k e
  | n + 1, h => by
    by_cases h0 : (n + 1) % 128 = 0
    · rw [outsAt0_A m c ⟨n + 1, h⟩ h0, out_A]
      funext y
      obtain ⟨a, k, e, rfl⟩ : ∃ (a : Fin 1) (k : Fin 1024) (e : Fin 256), y = ix3 a k e := ⟨y 0, y 1, y 2, eq_ix3 y⟩
      obtain rfl : a = 0 := Subsingleton.elim _ _
      refine (pay4_apply (lblk m c ⟨n + 1, h⟩) (k0_pay1 (F := Ideal)) (scr (fblk m c ⟨n + 1, h⟩)) k e).trans ?_
      rw [pay1_apply, step_sum m c ⟨n + 1, h⟩ k e]
      exact acc_first m c (n + 1) h0 k e
    · rw [outsAt0_B m c ⟨n + 1, h⟩ h0, out_B]
      funext y
      obtain ⟨a, k, e, rfl⟩ : ∃ (a : Fin 1) (k : Fin 1024) (e : Fin 256), y = ix3 a k e := ⟨y 0, y 1, y 2, eq_ix3 y⟩
      obtain rfl : a = 0 := Subsingleton.elim _ _
      refine (pay4_apply (lblk m c ⟨n + 1, h⟩) (outsAt0 m c n (Nat.lt_of_succ_lt h)) (scr (fblk m c ⟨n + 1, h⟩)) k e).trans ?_
      rw [outsAt_eq c n (Nat.lt_of_succ_lt h), step_sum m c ⟨n + 1, h⟩ k e]
      exact acc_next m c n h0 k e

end Cert.KernelIdeal.KAcc

end
-- ==== Proof.KernelFinal.lean ====
/-
  What the region leaves in its result array. The output block is written back once per core, after the core's last
  point (points 127 and 255), when the running sum covers the core's whole half of the samples; the two blocks tile the
  array, so the array ends holding the two halves' partial sums.
-/
import proofs.«424271_j52948356825776_3_alg».proof.Proof.KernelAcc

set_option maxRecDepth 16384

noncomputable section

open scoped BigOperators

namespace Cert.KernelIdeal.KAcc

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- What a core's last point writes back is its block of the two halves' partial sums. The running sum and the
    partial sums enter only through two facts stated beforehand (after the core's last point the running sum is the
    core's half; it depends on row and column only), and the view's element-type cast is removed on a variable. -/
theorem flushed_eq (c : Dev nD) (t : Fin cfg0.N) (hf : (cfg0.win 2).flush t = true) :
    (dats m 0 c).flushed 2 t
      = ((cfg0.win 2).blk t).view.read (Elt Ideal) (Cert.SegMean.partialSums (labR m c) (feat m c)) := by
  have h127 : t.val % 128 = 127 := (flush0_2 t).mp hf
  have hN := lt_N t
  have hq : t.val / 128 < 2 := by omega
  obtain ⟨-, -, -, -, e4, e5, e6⟩ := idx_facts t
  show (cfg0.win 2).cut (grid0.coords t) ((dats m 0 c).after 2 t) = _
  rw [after0_2, outsAt_eq]
  have hA : ∀ (k : Fin 1024) (e : Fin 256), accAt m c t.val (ix3 0 k e)
      = Cert.SegMean.partialSums (labR m c) (feat m c) (ix3 ⟨t.val / 128, hq⟩ k e) := fun k e => acc_last m c t.val h127 hq k e
  have hC : ∀ Y Y' : S1x1024x256.Idx, Y 1 = Y' 1 → Y 2 = Y' 2 → accAt m c t.val Y = accAt m c t.val Y' :=
    accAt_congr m c t.val
  generalize accAt m c t.val = X at hA hC ⊢
  generalize Cert.SegMean.partialSums (labR m c) (feat m c) = G at hA ⊢
  funext y
  have hy0 : (y 0).val < 1 := (y 0).isLt
  have hy1 : (y 1).val < 1024 := (y 1).isLt
  have hy2 : (y 2).val < 256 := (y 2).isLt
  rw [View.read_apply]
  have hemb : ((cfg0.win 2).blk t).view.emb y = ix3 ⟨t.val / 128, hq⟩ ⟨(y 1).val, hy1⟩ ⟨(y 2).val, hy2⟩ := funext fun a => Fin.ext (by
    match a with
    | ⟨0, _⟩ => show win0_2.index t (0 : Fin 3) * 1 + 1 * (y 0).val = t.val / 128; rw [e4]; omega
    | ⟨1, _⟩ => show win0_2.index t (1 : Fin 3) * 1024 + 1 * (y 1).val = (y 1).val; rw [e5]; omega
    | ⟨2, _⟩ => show win0_2.index t (2 : Fin 3) * 256 + 1 * (y 2).val = (y 2).val; rw [e6]; omega)
  rw [hemb]
  have hcast : ∀ z : EReal, _root_.cast (congrArg (Elt Ideal) ((cfg0.win 2).blk t).view.elt_eq) z = z := fun z => rfl
  rw [hcast]
  show X ((cfg0.win 2).xinj (grid0.coords t) y) = _
  have hx1 : ((cfg0.win 2).xinj (grid0.coords t) y) 1 = (ix3 (0 : Fin 1) (⟨(y 1).val, hy1⟩ : Fin 1024) (⟨(y 2).val, hy2⟩ : Fin 256) : S1x1024x256.Idx) 1 := rfl
  have hx2 : ((cfg0.win 2).xinj (grid0.coords t) y) 2 = (ix3 (0 : Fin 1) (⟨(y 1).val, hy1⟩ : Fin 1024) (⟨(y 2).val, hy2⟩ : Fin 256) : S1x1024x256.Idx) 2 := rfl
  exact (hC _ _ hx1 hx2).trans (hA _ _)

/-- An index of the result array is in point `t`'s block iff each coordinate is in the block's range on its axis. -/
theorem mem_blk (t : Fin cfg0.N) (i : S2x1024x256.Idx) :
    i ∈ ((cfg0.win 2).blk t).view.set ↔ ∀ a : Fin 3, win0_2.index t a * S1x1024x256.size a ≤ (i a).val
      ∧ (i a).val < win0_2.index t a * S1x1024x256.size a + S1x1024x256.size a := by
  show i ∈ ((View.whole main_v7).slice (win0_2.rect t)).set ↔ _
  rw [View.set_slice_whole, Rect.mem_set_unit]
  exact Iff.rfl

/-- Each of the two blocks of the result array is some flushing point's (decided over the grid). -/
theorem idx_onto : ∀ q : Fin 2, ∃ t : Fin cfg0.N, (cfg0.win 2).flush t = true ∧ win0_2.index t (0 : Fin 3) = q.val
    ∧ win0_2.index t (1 : Fin 3) = 0 ∧ win0_2.index t (2 : Fin 3) = 0 :=
  (by decide +kernel : ∀ q : Fin 2, ∃ t : Fin grid0.N, win0_2.flush t = true ∧ win0_2.index t (0 : Fin 3) = q.val
    ∧ win0_2.index t (1 : Fin 3) = 0 ∧ win0_2.index t (2 : Fin 3) = 0)

/-- The result array after the region: the two halves' partial sums. -/
theorem final_arr (c : Dev nD) :
    (dats m 0 c).arrAt 2 cfg0.N = Cert.SegMean.partialSums (labR m c) (feat m c) :=
  (dats m 0 c).arrAt_eq_of_cover 2 (Cert.SegMean.partialSums (labR m c) (feat m c)) (flushed_eq m c) fun i => by
    have hi0 : (i 0).val < 2 := (i 0).isLt
    have hi1 : (i 1).val < 1024 := (i 1).isLt
    have hi2 : (i 2).val < 256 := (i 2).isLt
    obtain ⟨t, hf, e4, e5, e6⟩ := idx_onto ⟨(i 0).val, hi0⟩
    refine ⟨t, hf, ?_⟩
    rw [mem_blk]
    intro a
    match a with
    | ⟨0, _⟩ => show win0_2.index t (0 : Fin 3) * 1 ≤ (i 0).val ∧ (i 0).val < win0_2.index t (0 : Fin 3) * 1 + 1; rw [e4]; show (i 0).val * 1 ≤ (i 0).val ∧ (i 0).val < (i 0).val * 1 + 1; omega
    | ⟨1, _⟩ => show win0_2.index t (1 : Fin 3) * 1024 ≤ (i 1).val ∧ (i 1).val < win0_2.index t (1 : Fin 3) * 1024 + 1024; rw [e5]; omega
    | ⟨2, _⟩ => show win0_2.index t (2 : Fin 3) * 256 ≤ (i 2).val ∧ (i 2).val < win0_2.index t (2 : Fin 3) * 256 + 256; rw [e6]; omega

end Cert.KernelIdeal.KAcc

end
-- ==== Proof.KernelHost.lean ====
/-
  The kernel's program around its one region, at any float instance. Before the region the labels are remapped (a
  label outside `[0, 1000)`, read signed, becomes 1023) and laid out as one row. After it the two halves' partial
  results are added, the class rows below 1000 kept, columns `[0, 128)` read as the sums and column 128 as the counts,
  and the shared tail applied.
-/
import proofs.«424271_j52948356825776_3_alg».proof.Proof.Gen.KernelIdeal.Frame
import proofs.«424271_j52948356825776_3_alg».proof.Proof.Tail
import proofs.«424271_j52948356825776_3_alg».proof.Proof.Spec
import Idealize.ShloMosaic.Lib.Pipeline.Value
import Idealize.ShloMosaic.Lib.StableHlo.Run
import Idealize.ShloMosaic.PureOps.Ideal.Laws

noncomputable section

open scoped BigOperators

namespace Cert.KernelIdeal.KHost

open Cert.KernelIdeal Cert.KernelIdeal.Gen Idealize.ShloMosaic Idealize.ShloMosaic.TcCoe Idealize.SL.Sem
open Idealize.ShloMosaic.ValueIdx
open Idealize.ShloMosaic.Pipeline (Dat)

variable {F : FTy → Type} [FloatOps F]
variable (m : (ℓ : Loc nD τ sig) → Buf (Elt F) ℓ)

/-! ## Before the region: the labels remapped -/

/-- The remap on a whole label vector, as the program computes it: where `0 ≤ label` and `label < 1000` (both signed)
    the label itself, elsewhere the constant 1023. -/
def remap (lab : IVec S1048576 32) : IVec S1048576 32 :=
  select (andi (cmpi .sge lab (broadcastInDim S1048576 ![] bcast_S_S1048576 (constantI S_ 32 0#32)))
      (cmpi .slt lab (broadcastInDim S1048576 ![] bcast_S_S1048576 (constantI S_ 32 1000#32))))
    lab (broadcastInDim S1048576 ![] bcast_S_S1048576 (constantI S_ 32 1023#32))

/-- At one sample it is the remap of that sample's label: the two signed compares are the two bounds on the label's
    integer value, their conjunction selects. -/
theorem remap_apply (lab : IVec S1048576 32) (i : S1048576.Idx) : remap lab i = Cert.SegMean.relabel (lab i) := by
  show Scalar.select (IntOp.andi (IntOp.cmpi .sge (lab i) 0#32) (IntOp.cmpi .slt (lab i) 1000#32)) (lab i) 1023#32 = _
  unfold Cert.SegMean.relabel
  have z : (0#32 : BitVec 32).toInt = 0 := by decide
  have k : (1000#32 : BitVec 32).toInt = 1000 := by decide
  by_cases h : 0 ≤ (lab i).toInt ∧ (lab i).toInt < 1000
  · rw [if_pos h, IntOp.andi_eq_one.mpr ⟨IntOp.cmpi_sge.mpr (by rw [z]; exact h.1), IntOp.cmpi_slt.mpr (by rw [k]; exact h.2)⟩, select_one]
  · have hne : ¬IntOp.andi (IntOp.cmpi .sge (lab i) 0#32) (IntOp.cmpi .slt (lab i) 1000#32) = 1#1 := fun e => h
      ⟨by have := IntOp.cmpi_sge.mp (IntOp.andi_eq_one.mp e).1; rwa [z] at this,
       by have := IntOp.cmpi_slt.mp (IntOp.andi_eq_one.mp e).2; rwa [k] at this⟩
    rw [if_neg h, eq_zero_of_ne_one hne, select_zero]

/-- The label row the region reads: sample `N`'s label, remapped. -/
theorem labels_eq (c : Dev nD) (N : Fin 1048576) :
    (V m c main_v6 : S1x1048576.Idx → BitVec 32) (ix2 0 N)
      = Cert.SegMean.relabel ((m ((c.tc : Thread nD τ).loc main_arg1) : S1048576.Idx → BitVec 32) (ix1 N)) := by
  -- the row is the remapped vector laid out as `[1, 1048576]`
  have e : (V m c main_v6 : S1x1048576.Idx → BitVec 32)
      = shapeCast S1x1048576 (remap (m ((c.tc : Thread nD τ).loc main_arg1))) shapeCasts_S1048576_S1x1048576 := by
    dsimp only [Gen.V, Gen.V0]
    simp only [Gen.hostOps0, Gen.hostOps0_1, Gen.hostOps0_2, List.flatten_cons, List.flatten_nil, List.append_nil, List.cons_append, List.nil_append]
    after_results
    rfl
  rw [e]
  -- `(0, N)` of the row and `N` of the vector have the same row-major position
  refine (shapeCast_apply _ _ (ix2 0 N) (ix1 N) ?_).trans (remap_apply _ _)
  rw [Shape.rowMajor_val_two, Shape.rowMajor_val_one]
  show N.val = 0 * 1048576 + N.val
  omega

/-! ## After the region: the sums and the counts off the result array -/

/-- The kernel's per-class sums out of the region's result array `A`: the two halves added, rows below 1000, columns below 128. -/
def ksums (A : FVec F S2x1024x256 .f32) : FVec F S1000x128 .f32 :=
  extractStridedSlice S1000x128 ![0, 0]
    (Host.reduceAdd A (constant (F := F) S_ .f32 0x00000000#32) reducesTo_S2x1024x256_S1024x256_d0 h_S_)
    slices_S1024x256_S1000x128_0_0

/-- The kernel's per-class counts out of `A`: the two halves added, rows below 1000, column 128. -/
def kcounts (A : FVec F S2x1024x256 .f32) : FVec F S1000 .f32 :=
  shapeCast S1000
    (extractStridedSlice S1000x1 ![0, 128]
      (Host.reduceAdd A (constant (F := F) S_ .f32 0x00000000#32) reducesTo_S2x1024x256_S1024x256_d0 h_S_)
      slices_S1024x256_S1000x1_0_128)
    shapeCasts_S1000x1_S1000

/-- The program's result after the region: the shared tail of the sums and counts read off the region's result array. -/
theorem tail_eq (c : Dev nD) :
    Pipeline.afterTail₀ cfgs (dats m) 0 (V0 m) [hostOps1, hostOps1_1, hostOps1_2] c main_v30
      = Cert.SegMean.tail (ksums ((dats m 0 c).arrAt 2 cfg0.N)) (kcounts ((dats m 0 c).arrAt 2 cfg0.N))
          (m ((c.tc : Thread nD τ).loc main_arg2)) := by
  -- what the later lines find: the region's result array where the region left it, the prototypes as launched
  have h7 : Pipeline.withArrays (cfgs 0).spec c (V0 m c) (fun w => (dats m 0 c).arrAt w (cfgs 0).N) (Proc.devRef .tc main_v7)
      = (dats m 0 c).arrAt 2 cfg0.N :=
    Pipeline.withArrays_arr spec0 launch0.win.arr_inj c _ _ 2
  have h2 : Pipeline.withArrays (cfgs 0).spec c (V0 m c) (fun w => (dats m 0 c).arrAt w (cfgs 0).N) (Proc.devRef .tc main_arg2)
      = m ((c.tc : Thread nD τ).loc main_arg2) :=
    (Pipeline.withArrays_of_ne _ c (V0 m c) _ main_arg2 (by exact (by decide : ∀ w, Pipeline.arrRef spec0 w ≠ main_arg2))).trans
      (V_main_arg2 m c)
  unfold Pipeline.afterTail₀
  simp only [Gen.hostOps1, Gen.hostOps1_1, Gen.hostOps1_2, List.flatten_cons, List.flatten_nil, List.append_nil, List.cons_append, List.nil_append]
  after_results_simp
  rw [h7, h2]
  -- the same operations on the same operands, the shapes and their side conditions under the other program's names
  unfold Cert.SegMean.tail ksums kcounts
  rfl

/-! ## The sums and the counts at an index, over the extended reals -/

/-- The two halves added, read at row `r`, column `e`: zero plus the two halves' entries there. -/
theorem halves_apply (A : FVec Ideal S2x1024x256 .f32) (r : Fin 1024) (e : Fin 256) :
    Host.reduceAdd A (constant (F := Ideal) S_ .f32 0x00000000#32) reducesTo_S2x1024x256_S1024x256_d0 h_S_ (ix2 r e)
      = (0 : EReal) + ∑ cc : Fin 2, A (ix3 cc r e) := by
  show Ideal.hostReduceAdd reducesTo_S2x1024x256_S1024x256_d0 A (Ideal.ofBits .f32 0x00000000#32) (ix2 r e) = _
  have hR : S2x1024x256.Reduces [0] S1024x256 := by decide
  rw [Ideal.hostReduceAdd_single reducesTo_S2x1024x256_S1024x256_d0 hR, Ideal.ofBits_zero_f32]
  show (0 : EReal) + ∑ cc : Fin 2, A (hR.lift (ix2 r e) cc) = _
  -- the index over `(r, e)` with `cc` inserted on the leading axis is `(cc, r, e)`
  refine congrArg ((0 : EReal) + ·) (Finset.sum_congr rfl fun cc _ => congrArg A (funext fun a => Fin.ext ?_))
  match a with
  | ⟨0, _⟩ => rfl
  | ⟨1, _⟩ => rfl
  | ⟨2, _⟩ => rfl

/-- At the ideal instance the kernel's sums at `(k, d)` are zero plus the two halves' entries at row `k`, column `d`. -/
theorem ksums_apply (A : FVec Ideal S2x1024x256 .f32) (k : Fin 1000) (d : Fin 128) :
    ksums A (ix2 k d) = (0 : EReal) + ∑ cc : Fin 2, A (ix3 cc ⟨k.val, by omega⟩ ⟨d.val, by omega⟩) := by
  unfold ksums
  -- the slice starts at row 0, column 0
  refine (extractStridedSlice_apply _ _ _ (ix2 k d) (ix2 (⟨k.val, by omega⟩ : Fin 1024) (⟨d.val, by omega⟩ : Fin 256)) (fun a => ?_)).trans
    (halves_apply A _ _)
  match a with
  | ⟨0, _⟩ => exact (Nat.zero_add _).symm
  | ⟨1, _⟩ => exact (Nat.zero_add _).symm

/-- and its counts at `k` zero plus the two halves' entries at row `k`, column 128. -/
theorem kcounts_apply (A : FVec Ideal S2x1024x256 .f32) (k : Fin 1000) :
    kcounts A (ix1 k) = (0 : EReal) + ∑ cc : Fin 2, A (ix3 cc ⟨k.val, by omega⟩ ⟨128, by omega⟩) := by
  unfold kcounts
  -- `k` of the vector and `(k, 0)` of the one-column matrix have the same row-major position
  refine (shapeCast_apply _ _ (ix1 k) (ix2 k (0 : Fin 1)) ?_).trans ?_
  · rw [Shape.rowMajor_val_two, Shape.rowMajor_val_one]
    show k.val * 1 + 0 = k.val
    omega
  -- the slice starts at row 0, column 128
  · refine (extractStridedSlice_apply _ _ _ (ix2 k (0 : Fin 1)) (ix2 (⟨k.val, by omega⟩ : Fin 1024) (⟨128, by omega⟩ : Fin 256)) (fun a => ?_)).trans
      (halves_apply A _ _)
    match a with
    | ⟨0, _⟩ => exact (Nat.zero_add _).symm
    | ⟨1, _⟩ => rfl

end Cert.KernelIdeal.KHost

end
-- ==== Proof.KernelValue.lean ====
/-
  The kernel's run, read at the ideal instance. The region's result array holds the two halves' partial sums; the
  program adds the halves and keeps the class rows below 1000, so its sums are the per-class feature sums and its
  counts the per-class counts of the labels as launched (a remapped label lands in column 1023, which no class below
  1000 reads); its result is the shared tail of them and of the prototypes.
-/
import proofs.«424271_j52948356825776_3_alg».proof.Proof.KernelFinal
import proofs.«424271_j52948356825776_3_alg».proof.Proof.KernelHost

noncomputable section

open scoped BigOperators

namespace Cert.KernelIdeal.KValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The kernel's sums are the per-class feature sums of its arguments. -/
theorem sums_eq (c : Dev nD) :
    KHost.ksums (F := Ideal) ((dats m 0 c).arrAt 2 cfg0.N)
      = Cert.SegMean.classSum (m ((c.tc : Thread nD τ).loc main_arg0)) (m ((c.tc : Thread nD τ).loc main_arg1)) := by
  rw [KAcc.final_arr m c]
  funext i
  obtain ⟨k, d, rfl⟩ : ∃ (k : Fin 1000) (d : Fin 128), i = ix2 k d := ⟨i 0, i 1, eq_ix2 i⟩
  rw [KHost.ksums_apply]
  have h := Cert.SegMean.halves_sum (KAcc.feat m c) (m ((c.tc : Thread nD τ).loc main_arg1)) (KAcc.labR m c)
    (fun N => KHost.labels_eq m c N) k d
  rw [show KAcc.feat m c = m ((c.tc : Thread nD τ).loc main_arg0) from V_main_arg0 m c] at h
  exact h

/-- The kernel's counts are the per-class counts of its labels. -/
theorem counts_eq (c : Dev nD) :
    KHost.kcounts (F := Ideal) ((dats m 0 c).arrAt 2 cfg0.N) = Cert.SegMean.classCount (m ((c.tc : Thread nD τ).loc main_arg1)) := by
  rw [KAcc.final_arr m c]
  funext i
  obtain ⟨k, rfl⟩ : ∃ k : Fin 1000, i = ix1 k := ⟨i 0, eq_ix1 i⟩
  rw [KHost.kcounts_apply]
  exact Cert.SegMean.halves_count (KAcc.feat m c) (m ((c.tc : Thread nD τ).loc main_arg1)) (KAcc.labR m c)
    (fun N => KHost.labels_eq m c N) k

/-- The kernel's run: its result is the shared tail of the per-class sums and counts of its arguments, which end unchanged. -/
theorem kernel_run : θ_run defs (onTc (τ := τ) (main (F := Ideal))) ⟨m, fun _ => 0, ρ⟩ fun r => ∀ c : Dev nD,
      r.2.mem ((c.tc : Thread nD τ).loc main_v30)
        = Cert.SegMean.tail (F := Ideal)
            (Cert.SegMean.classSum (m ((c.tc : Thread nD τ).loc main_arg0)) (m ((c.tc : Thread nD τ).loc main_arg1)))
            (Cert.SegMean.classCount (m ((c.tc : Thread nD τ).loc main_arg1))) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h c).2 main_v30 (Pipeline.mem_restRefs_of main_v30 (by decide) (by decide))).trans
        ((KHost.tail_eq m c).trans (by rw [sums_eq m c, counts_eq m c])),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KValue

end
-- ==== Proof.lean ====
/-
  The per-class prototype update: the kernel against its reference, over the extended reals.

  Both programs compute, for every class `k < 1000`, the sum of the feature rows of the samples labelled `k` and the
  number of such samples, and then apply the same arithmetic to sums, counts and the old prototypes (the mean
  `sums / max(counts, 1)`; the row-sum test for a cold prototype; the blend `0.9 · protos + 0.1 · mean`; a class with no
  sample keeps its prototype). The reference gets sums and counts by two accumulating scatters, which drop a label
  outside `[0, 1000)`. The kernel remaps such a label to 1023, builds for each block of 4096 samples the one-hot matrix
  of the labels (1024 rows), multiplies it by the block's features extended by a column of ones, accumulates the
  products over the 128 blocks of each half of the samples, adds the two halves and keeps rows below 1000: columns
  below 128 are the sums, column 128 the counts. Over the extended reals a one-hot product is the sum of the selected
  rows (`1 · x = x`, `0 · x = 0`) and sums may be regrouped freely, so both sides hold the same sums and counts; the
  shared arithmetic is carried as one function and never opened. No finiteness of the inputs is used.

  The three frames are the generated frame runs (the reference's is its run with the result dropped); the ideal pass
  rewrote nothing, so `preserves` is `True`.
-/
import proofs.«424271_j52948356825776_3_alg».proof.Defs
import proofs.«424271_j52948356825776_3_alg».proof.Proof.Gen.Kernel
import proofs.«424271_j52948356825776_3_alg».proof.Proof.Gen.Kernel.Skeleton
import proofs.«424271_j52948356825776_3_alg».proof.Proof.Gen.Kernel.Launch
import proofs.«424271_j52948356825776_3_alg».proof.Proof.Gen.Kernel.Points
import proofs.«424271_j52948356825776_3_alg».proof.Proof.Gen.Kernel.Frame
import proofs.«424271_j52948356825776_3_alg».proof.Proof.Gen.KernelIdeal
import proofs.«424271_j52948356825776_3_alg».proof.Proof.Gen.KernelIdeal.Skeleton
import proofs.«424271_j52948356825776_3_alg».proof.Proof.Gen.KernelIdeal.Launch
import proofs.«424271_j52948356825776_3_alg».proof.Proof.Gen.KernelIdeal.Points
import proofs.«424271_j52948356825776_3_alg».proof.Proof.Gen.KernelIdeal.Frame
import proofs.«424271_j52948356825776_3_alg».proof.Proof.Gen.ReferenceIdeal
import proofs.«424271_j52948356825776_3_alg».proof.Proof.Gen.Pre_finite_inputs
import proofs.«424271_j52948356825776_3_alg».proof.Proof.RefRun
import proofs.«424271_j52948356825776_3_alg».proof.Proof.RefValue
import proofs.«424271_j52948356825776_3_alg».proof.Proof.KernelValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at the shared tail of the per-class sums and counts of arguments that agree. -/
theorem algebraic : Cert.algebraic_KernelIdeal_ReferenceIdeal := by
  intro m ρ m' ρ' _ hagree
  refine ⟨_, Cert.KernelIdeal.KValue.kernel_run m ρ, ?_⟩
  refine (θ_run Cert.ReferenceIdeal.defs _ _).mono (fun _ h c => ⟨(h c).1.trans ?_, (h c).2⟩) (Cert.SegMean.ref_run m' ρ')
  rw [(hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
